-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x1024x512 : Shape := ⟨4, ![8, 2, 1024, 512]⟩
abbrev S8x2x1024 : Shape := ⟨3, ![8, 2, 1024]⟩
abbrev S512x128 : Shape := ⟨2, ![512, 128]⟩
abbrev S128 : Shape := ⟨1, ![128]⟩
abbrev S_ : Shape := ⟨0, ![]⟩

class Facts : Prop where
  bcast_S_S8x2x1024x512 : S_.BroadcastsInDim S8x2x1024x512 (![] : Fin 0 → Fin S8x2x1024x512.rank)
  reducesTo_S8x2x1024x512_S_d0_1_2_3 : S8x2x1024x512.ReducesTo [0, 1, 2, 3] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x2x1024x512 .f32) (main_arg1 : IVec S8x2x1024 1) (main_arg2 : FVec F S512x128 .f32) (main_arg3 : FVec F S128 .f32) : IVec S_ 1 :=
  let main_v0 : FVec F S8x2x1024x512 .f32 := Host.absf main_arg0
  let main_cst : FVec F S_ .f32 := constant S_ .f32 0x7F800000#32
  let main_v1 : FVec F S8x2x1024x512 .f32 := broadcastInDim S8x2x1024x512 ![] bcast_S_S8x2x1024x512 main_cst
  let main_v2 : IVec S8x2x1024x512 1 := cmpf .olt main_v0 main_v1
  let main_c : IVec S_ 1 := constantI S_ 1 1#1
  let main_v3 : IVec S_ 1 := (fun x v => Host.reduce IntOp.andi x v reducesTo_S8x2x1024x512_S_d0_1_2_3 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x2x1024x512 : Shape := ⟨4, ![8, 2, 1024, 512]⟩
abbrev S8x2x1024 : Shape := ⟨3, ![8, 2, 1024]⟩
abbrev S512x128 : Shape := ⟨2, ![512, 128]⟩
abbrev S128 : Shape := ⟨1, ![128]⟩
abbrev S8x1x128 : Shape := ⟨3, ![8, 1, 128]⟩
abbrev S1x2x1024x512 : Shape := ⟨4, ![1, 2, 1024, 512]⟩
abbrev S1x2x1024 : Shape := ⟨3, ![1, 2, 1024]⟩
abbrev S1x1x128 : Shape := ⟨3, ![1, 1, 128]⟩
abbrev S1x1x1024x512 : Shape := ⟨4, ![1, 1, 1024, 512]⟩
abbrev S1024x512 : Shape := ⟨2, ![1024, 512]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 8
  | .vmem => 8
  | .smem => 0
  | _ => 0

abbrev bufTy : (tb : Table) → Fin (tcTables nBuf tb) → BufTy
  | .hbm, ⟨0, _⟩ => ⟨S8x2x1024x512, .f32⟩
  | .hbm, ⟨1, _⟩ => ⟨S8x2x1024, .i1⟩
  | .hbm, ⟨2, _⟩ => ⟨S512x128, .f32⟩
  | .hbm, ⟨3, _⟩ => ⟨S128, .f32⟩
  | .hbm, ⟨4, _⟩ => ⟨S8x2x1024, .f32⟩
  | .hbm, ⟨5, _⟩ => ⟨S8x1x128, .f32⟩
  | .hbm, ⟨6, _⟩ => ⟨S8x1x1, .f32⟩
  | .hbm, ⟨7, _⟩ => ⟨S8, .f32⟩
  | .local _ .vmem, ⟨0, _⟩ => ⟨S1x2x1024x512, .f32⟩
  | .local _ .vmem, ⟨1, _⟩ => ⟨S1x2x1024x512, .f32⟩
  | .local _ .vmem, ⟨2, _⟩ => ⟨S1x2x1024, .f32⟩
  | .local _ .vmem, ⟨3, _⟩ => ⟨S1x2x1024, .f32⟩
  | .local _ .vmem, ⟨4, _⟩ => ⟨S512x128, .f32⟩
  | .local _ .vmem, ⟨5, _⟩ => ⟨S128, .f32⟩
  | .local _ .vmem, ⟨6, _⟩ => ⟨S1x1x128, .f32⟩
  | .local _ .vmem, ⟨7, _⟩ => ⟨S1x1x128, .f32⟩
  | _, _ => ⟨S8x2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2x1024x512_S1x1x1024x512_0_0_0_0 : ∀ a, (![0, 0, 0, 0] : Fin 4 → Nat) a + S1x1x1024x512.size a ≤ S1x2x1024x512.size a
  h_S1x1x1024x512 : 0 < S1x1x1024x512.numel
  shapeCasts_S1x1x1024x512_S1024x512 : S1x1x1024x512.ShapeCasts S1024x512
  inb_S1x2x1024x512_S1x1x1024x512_0_1_0_0 : ∀ a, (![0, 1, 0, 0] : Fin 4 → Nat) a + S1x1x1024x512.size a ≤ S1x2x1024x512.size a
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1024 : S1x1x1024.ShapeCasts S1024
  inb_S1x2x1024_S1x1x1024_0_1_0 : ∀ a, (![0, 1, 0] : Fin 3 → Nat) a + S1x1x1024.size a ≤ S1x2x1024.size a
  shapeCasts_S1024_S1x1024 : S1024.ShapeCasts S1x1024
  reduces_S1024x1024_S1024 : S1024x1024.Reduces [1] S1024
  reduces_S1024x1024_S1024_2 : S1024x1024.Reduces [0] S1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  slices_S8x1x128_S8x1x1_0_0_0 : S8x1x128.Slices ![0, 0, 0] S8x1x1
  shapeCasts_S8x1x1_S8 : S8x1x1.ShapeCasts S8
  dot_S1024x512_S512x128_S1024x128_1_0_0_1_n_n_wf : DotDims.WF S1024x512 S512x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x512.size a ≤ S8x2x1024x512.size a
  hwx0_0 : ∀ i : grid0.Coords, EltTy.bits .f32 = 32 ∨ (Rect.block (s := S8x2x1024x512) S1x2x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S8x2x1024.size a
  hwx0_1 : ∀ i : grid0.Coords, EltTy.bits .f32 = 32 ∨ (Rect.block (s := S8x2x1024) S1x2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x2x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2x1024x512 : Shape := ⟨4, ![8, 2, 1024, 512]⟩
abbrev S8x2x1024 : Shape := ⟨3, ![8, 2, 1024]⟩
abbrev S512x128 : Shape := ⟨2, ![512, 128]⟩
abbrev S128 : Shape := ⟨1, ![128]⟩
abbrev S8x2x1024x128 : Shape := ⟨4, ![8, 2, 1024, 128]⟩
abbrev S1x1x1x128 : Shape := ⟨4, ![1, 1, 1, 128]⟩
abbrev S8x1x1024x128 : Shape := ⟨4, ![8, 1, 1024, 128]⟩
abbrev S8x1024x128 : Shape := ⟨3, ![8, 1024, 128]⟩
abbrev S_ : Shape := ⟨0, ![]⟩
abbrev S8x1024 : Shape := ⟨2, ![8, 1024]⟩
abbrev S8x1024x1024 : Shape := ⟨3, ![8, 1024, 1024]⟩
abbrev S8x1024x1 : Shape := ⟨3, ![8, 1024, 1]⟩
abbrev S8x1x1024 : Shape := ⟨3, ![8, 1, 1024]⟩
abbrev S8 : Shape := ⟨1, ![8]⟩

abbrev nBuf : Space → Nat
  | .hbm => 84
  | .vmem => 0
  | .smem => 0
  | _ => 0

abbrev bufTy : (tb : Table) → Fin (tcTables nBuf tb) → BufTy
  | .hbm, ⟨0, _⟩ => ⟨S8x2x1024x512, .f32⟩
  | .hbm, ⟨1, _⟩ => ⟨S8x2x1024, .i1⟩
  | .hbm, ⟨2, _⟩ => ⟨S512x128, .f32⟩
  | .hbm, ⟨3, _⟩ => ⟨S128, .f32⟩
  | .hbm, ⟨4, _⟩ => ⟨S8x2x1024x128, .f32⟩
  | .hbm, ⟨5, _⟩ => ⟨S1x1x1x128, .f32⟩
  | .hbm, ⟨6, _⟩ => ⟨S8x2x1024x128, .f32⟩
  | .hbm, ⟨7, _⟩ => ⟨S8x2x1024x128, .f32⟩
  | .hbm, ⟨8, _⟩ => ⟨S8x1x1024x128, .f32⟩
  | .hbm, ⟨9, _⟩ => ⟨S8x1024x128, .f32⟩
  | .hbm, ⟨10, _⟩ => ⟨S8x1x1024x128, .f32⟩
  | .hbm, ⟨11, _⟩ => ⟨S8x1024x128, .f32⟩
  | .hbm, ⟨12, _⟩ => ⟨S8x1024x128, .f32⟩
  | .hbm, ⟨13, _⟩ => ⟨S_, .f32⟩
  | .hbm, ⟨14, _⟩ => ⟨S8x1024, .f32⟩
  | .hbm, ⟨15, _⟩ => ⟨S8x1024x128, .f32⟩
  | .hbm, ⟨16, _⟩ => ⟨S_, .f32⟩
  | .hbm, ⟨17, _⟩ => ⟨S8x1024, .f32⟩
  | .hbm, ⟨18, _⟩ => ⟨S8x1024x1024, .f32⟩
  | .hbm, ⟨19, _⟩ => ⟨S8x1024x1, .f32⟩
  | .hbm, ⟨20, _⟩ => ⟨S8x1x1024, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | .hbm, ⟨24, _⟩ => ⟨S_, .f32⟩
  | .hbm, ⟨25, _⟩ => ⟨S8x1024x1024, .f32⟩
  | .hbm, ⟨26, _⟩ => ⟨S8x1024x1024, .f32⟩
  | .hbm, ⟨27, _⟩ => ⟨S8x1024x1024, .f32⟩
  | .hbm, ⟨28, _⟩ => ⟨S8x1x1024, .i1⟩
  | .hbm, ⟨29, _⟩ => ⟨S8x1024, .i1⟩
  | .hbm, ⟨30, _⟩ => ⟨S8x1024x1, .i1⟩
  | .hbm, ⟨31, _⟩ => ⟨S8x1x1024, .i1⟩
  | .hbm, ⟨32, _⟩ => ⟨S8x1024, .i1⟩
  | .hbm, ⟨33, _⟩ => ⟨S8x1x1024, .i1⟩
  | .hbm, ⟨34, _⟩ => ⟨S8x1024x1024, .i1⟩
  | .hbm, ⟨35, _⟩ => ⟨S8x1024x1024, .i1⟩
  | .hbm, ⟨36, _⟩ => ⟨S8x1024x1024, .i1⟩
  | .hbm, ⟨37, _⟩ => ⟨S8x1024x1024, .f32⟩
  | .hbm, ⟨38, _⟩ => ⟨S_, .f32⟩
  | .hbm, ⟨39, _⟩ => ⟨S_, .f32⟩
  | .hbm, ⟨40, _⟩ => ⟨S8x1024x1024, .f32⟩
  | .hbm, ⟨41, _⟩ => ⟨S8x1024x1024, .f32⟩
  | .hbm, ⟨42, _⟩ => ⟨S_, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024x1, .f32⟩
  | .hbm, ⟨48, _⟩ => ⟨S8x1024x1024, .f32⟩
  | .hbm, ⟨49, _⟩ => ⟨S8x1024x1024, .f32⟩
  | .hbm, ⟨50, _⟩ => ⟨S8x1024x1024, .f32⟩
  | .hbm, ⟨51, _⟩ => ⟨S_, .f32⟩
  | .hbm, ⟨52, _⟩ => ⟨S8x1024, .f32⟩
  | .hbm, ⟨53, _⟩ => ⟨S8x1024x1, .f32⟩
  | .hbm, ⟨54, _⟩ => ⟨S8x1024x1024, .f32⟩
  | .hbm, ⟨55, _⟩ => ⟨S8x1024x1024, .f32⟩
  | .hbm, ⟨56, _⟩ => ⟨S_, .f32⟩
  | .hbm, ⟨57, _⟩ => ⟨S8x1024, .f32⟩
  | .hbm, ⟨58, _⟩ => ⟨S_, .f32⟩
  | .hbm, ⟨59, _⟩ => ⟨S8x1024, .f32⟩
  | .hbm, ⟨60, _⟩ => ⟨S8x1024, .f32⟩
  | .hbm, ⟨61, _⟩ => ⟨S8x1x1024, .f32⟩
  | .hbm, ⟨62, _⟩ => ⟨S8x1024x1024, .f32⟩
  | .hbm, ⟨63, _⟩ => ⟨S8x1024x1024, .f32⟩
  | .hbm, ⟨64, _⟩ => ⟨S8x1024x1024, .f32⟩
  | .hbm, ⟨65, _⟩ => ⟨S_, .f32⟩
  | .hbm, ⟨66, _⟩ => ⟨S8x1024, .f32⟩
  | .hbm, ⟨67, _⟩ => ⟨S8x1x1024, .f32⟩
  | .hbm, ⟨68, _⟩ => ⟨S8x1024x1024, .f32⟩
  | .hbm, ⟨69, _⟩ => ⟨S8x1024x1024, .f32⟩
  | .hbm, ⟨70, _⟩ => ⟨S8x1024x1024, .f32⟩
  | .hbm, ⟨71, _⟩ => ⟨S8x1024x1024, .f32⟩
  | .hbm, ⟨72, _⟩ => ⟨S8x1024x1024, .f32⟩
  | .hbm, ⟨73, _⟩ => ⟨S_, .f32⟩
  | .hbm, ⟨74, _⟩ => ⟨S_, .f32⟩
  | .hbm, ⟨75, _⟩ => ⟨S8x1024x1024, .f32⟩
  | .hbm, ⟨76, _⟩ => ⟨S8x1024x1024, .f32⟩
  | .hbm, ⟨77, _⟩ => ⟨S8x1024x1024, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | _, _ => ⟨S8x2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x2x1024x128_0_1_2_3 : S1x1x1x128.BroadcastsInDim S8x2x1024x128 (![0, 1, 2, 3] : Fin 4 → Fin S8x2x1024x128.rank)
  slices_S8x2x1024x128_S8x1x1024x128_0_0_0_0 : S8x2x1024x128.Slices ![0, 0, 0, 0] S8x1x1024x128
  shapeCasts_S8x1x1024x128_S8x1024x128 : S8x1x1024x128.ShapeCasts S8x1024x128
  slices_S8x2x1024x128_S8x1x1024x128_0_1_0_0 : S8x2x1024x128.Slices ![0, 1, 0, 0] S8x1x1024x128
  reducesTo_S8x1024x128_S8x1024_d2 : S8x1024x128.ReducesTo [2] S8x1024
  h_S_ : 0 < S_.numel
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  slices_S8x2x1024_S8x1x1024_0_0_0 : S8x2x1024.Slices ![0, 0, 0] S8x1x1024
  shapeCasts_S8x1x1024_S8x1024 : S8x1x1024.ShapeCasts S8x1024
  slices_S8x2x1024_S8x1x1024_0_1_0 : S8x2x1024.Slices ![0, 1, 0] S8x1x1024
  reducesTo_S8x1024x1024_S8x1024_d2 : S8x1024x1024.ReducesTo [2] S8x1024
  bcast_S_S8x1024 : S_.BroadcastsInDim S8x1024 (![] : Fin 0 → Fin S8x1024.rank)
  reducesTo_S8x1024x1024_S8x1024_d1 : S8x1024x1024.ReducesTo [1] S8x1024
  reducesTo_S8x1024x1024_S8_d1_2 : S8x1024x1024.ReducesTo [1, 2] S8
  dot_S8x2x1024x512_S512x128_S8x2x1024x128_3_0_012_1_n_n_wf : DotDims.WF S8x2x1024x512 S512x128 S8x2x1024x128 [3] [0] [0, 1, 2] [1] [] []
  dot_S8x1024x128_S8x1024x128_S8x1024x1024_2_2_1_1_0_0_wf : DotDims.WF S8x1024x128 S8x1024x128 S8x1024x1024 [2] [2] [1] [1] [0] [0]

variable [Facts₀]

def dot_S8x2x1024x512_S512x128_S8x2x1024x128_3_0_012_1_n_n : DotDims S8x2x1024x512 S512x128 S8x2x1024x128 where
  lhsContracting := [3]
  rhsContracting := [0]
  lhsNonContracting := [0, 1, 2]
  rhsNonContracting := [1]
  lhsBatch := []
  rhsBatch := []
  wf := dot_S8x2x1024x512_S512x128_S8x2x1024x128_3_0_012_1_n_n_wf
def dot_S8x1024x128_S8x1024x128_S8x1024x1024_2_2_1_1_0_0 : DotDims S8x1024x128 S8x1024x128 S8x1024x1024 where
  lhsContracting := [2]
  rhsContracting := [2]
  lhsNonContracting := [1]
  rhsNonContracting := [1]
  lhsBatch := [0]
  rhsBatch := [0]
  wf := dot_S8x1024x128_S8x1024x128_S8x1024x1024_2_2_1_1_0_0_wf

class Facts : Prop extends Facts₀ where

variable [Facts]
-- ==== Proof.Spec.lean ====
/-
  The soft symmetric alignment score of two embedded sequences, for ONE batch element, as a function of plain
  families of extended reals.

  Two sequences X, Y of 1024 vectors in dimension 512 are projected to dimension 128 by z ↦ z·W + β.  With
  D l m = |x_l|² + |y_m|² − 2 ⟨x_l, y_m⟩ the squared distance of the projected vectors, the logit of the pair
  (l, m) is −D l m where the pair is kept and a fixed large negative number where it is masked.  Each logit is
  turned into two weights: its share of row l after a softmax along m, and its share of column m after a softmax
  along l, each softmax shifted by that row's (column's) largest logit.  The attention of a kept pair is
  a + b − a·b of its two weights, and 0 for a masked pair.  The score is a weighted mean of −D under the attention.

  The mean's numerator is written here in TWO ways: as the attention-weighted sum of the logits, and as minus the
  attention-weighted sum of the distances.  They agree whenever every distance is a real number: on a kept pair the
  logit IS minus the distance, and on a masked pair the attention is zero.  The denominator is the same.

  Everything after the distances depends on the sequences only through the matrix D, so it is stated over an
  arbitrary matrix.  Which pairs are kept is a parameter too, a word of one bit per pair: the two programs compute
  it differently.  Float literals stay as their bit patterns: the same word on both sides is never evaluated.
-/
import Idealize.ShloMosaic.PureOps.Ideal.Laws

noncomputable section

namespace Cert.Align

open Idealize.ShloMosaic

/-- The float literal two. -/
abbrev two : EReal := Ideal.ofBits .f32 0x40000000#32
/-- The logit of a masked pair, minus ten to the ninth. -/
abbrev fill : EReal := Ideal.ofBits .f32 0xCE6E6B28#32
/-- The value a running maximum starts from, minus infinity. -/
abbrev floor : EReal := Ideal.ofBits .f32 0xFF800000#32

/-! ## The distances -/

section Distances

variable (X Y : Fin 1024 → Fin 512 → EReal) (W : Fin 512 → Fin 128 → EReal) (β : Fin 128 → EReal)

/-- Row l of a sequence, projected: coordinate e of z_l · W + β. -/
def proj (Z : Fin 1024 → Fin 512 → EReal) (l : Fin 1024) (e : Fin 128) : EReal := (∑ d : Fin 512, Z l d * W d e) + β e

/-- The squared length of projected row l. -/
def sqNorm (Z : Fin 1024 → Fin 512 → EReal) (l : Fin 1024) : EReal := ∑ e : Fin 128, proj W β Z l e * proj W β Z l e

/-- The inner product of projected row l of X with projected row m of Y. -/
def cross (l m : Fin 1024) : EReal := ∑ e : Fin 128, proj W β X l e * proj W β Y m e

/-- The squared distance between projected row l of X and projected row m of Y. -/
def dist (l m : Fin 1024) : EReal := (sqNorm W β X l + sqNorm W β Y m) - two * cross X Y W β l m

end Distances

/-! ## The score of a matrix of distances -/

section Score

variable (K : Fin 1024 → Fin 1024 → BitVec 1) (D : Fin 1024 → Fin 1024 → EReal)

/-- The logit of a pair: minus the distance where the pair is kept, the fill where it is masked. -/
def logit (l m : Fin 1024) : EReal := Scalar.select (K l m) (-(D l m)) fill

/-- The largest logit of row l. -/
def rowTop (l : Fin 1024) : EReal := (Finset.univ : Finset (Fin 1024)).fold max floor (fun m => logit K D l m)
/-- The largest logit of column m. -/
def colTop (m : Fin 1024) : EReal := (Finset.univ : Finset (Fin 1024)).fold max floor (fun l => logit K D l m)

/-- The exponential of a logit shifted by its row's largest. -/
def rowExp (l m : Fin 1024) : EReal := Ideal.exp (logit K D l m - rowTop K D l)
/-- The sum of row l's shifted exponentials. -/
def rowMass (l : Fin 1024) : EReal := ∑ m : Fin 1024, rowExp K D l m
/-- The softmax along m: the pair's share of its row. -/
def rowSoft (l m : Fin 1024) : EReal := Ideal.div (rowExp K D l m) (rowMass K D l)

/-- The exponential of a logit shifted by its column's largest. -/
def colExp (l m : Fin 1024) : EReal := Ideal.exp (logit K D l m - colTop K D m)
/-- The sum of column m's shifted exponentials. -/
def colMass (m : Fin 1024) : EReal := ∑ l : Fin 1024, colExp K D l m
/-- The softmax along l: the pair's share of its column. -/
def colSoft (l m : Fin 1024) : EReal := Ideal.div (colExp K D l m) (colMass K D m)

/-- The attention of a pair: a + b − a·b of its two shares where the pair is kept, zero where it is masked. -/
def att (l m : Fin 1024) : EReal :=
  Scalar.select (K l m) ((rowSoft K D l m + colSoft K D l m) - rowSoft K D l m * colSoft K D l m) 0

/-- The total attention. -/
def mass : EReal := ∑ l : Fin 1024, ∑ m : Fin 1024, att K D l m

/-- The attention-weighted sum of the logits. -/
def numLogit : EReal := ∑ l : Fin 1024, ∑ m : Fin 1024, att K D l m * logit K D l m

/-- Minus the attention-weighted sum of the distances. -/
def numDist : EReal := -(∑ l : Fin 1024, ∑ m : Fin 1024, att K D l m * D l m)

/-- The score with the numerator over the logits. -/
def scoreLogit : EReal := Ideal.div (numLogit K D) (mass K D)

/-- The score with the numerator over the distances. -/
def scoreDist : EReal := Ideal.div (numDist K D) (mass K D)

end Score

end Cert.Align

end
-- ==== Proof.KernelDist.lean ====
import proofs.«419952_j31868657336518_3_alg».proof.Proof.Gen.KernelIdeal.Skeleton
import proofs.«419952_j31868657336518_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## The operand indices of the two contractions

The first contraction multiplies rows by columns: at result index (l, e) and contraction position k the left operand
is read at (l, k) and the right at (k, e). The second contracts the last axis of both operands: at (l, m) and k the left
is read at (l, k) and the right at (m, k). Each coordinate is stated on its own, at a literal axis. -/

theorem lhs_proj_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
theorem lhs_proj_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_proj_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_proj_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

theorem lhs_cross_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem lhs_cross_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_cross_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem rhs_cross_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-! ## A projected row

One coordinate of a loaded sequence's row l times the weights plus the bias. -/

/-- The product with the weights at (l, e): the sum over the 512 input coordinates. -/
theorem matmul_proj_apply (x : FVec Ideal S1024x512 .bf16) (w : FVec Ideal S512x128 .bf16) (l : Fin 1024) (e : Fin 128) :
    matmul (F := Ideal) dot_S1024x512_S512x128_S1024x128_1_0_0_1_n_n none x w (constant S1024x128 .f32 0x00000000#32) (ix2 l e)
      = ∑ d : Fin 512, x (ix2 l d) * w (ix2 d e) := by
  refine (Ideal.matmul_constant_zero_apply dot_S1024x512_S512x128_S1024x128_1_0_0_1_n_n none x w (ix2 l e)).trans ?_
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 l e) ((contrEquiv1 dot_S1024x512_S512x128_S1024x128_1_0_0_1_n_n 512 rfl rfl).symm k) = ix2 l k :=
    funext fun a => Fin.ext (by
      match a with
      | ⟨0, _⟩ => exact lhs_proj_0 _ _
      | ⟨1, _⟩ => exact (lhs_proj_1 _ _).trans hk)
  have er : dot_S1024x512_S512x128_S1024x128_1_0_0_1_n_n.rhsIdx (ix2 l e) ((contrEquiv1 dot_S1024x512_S512x128_S1024x128_1_0_0_1_n_n 512 rfl rfl).symm k) = ix2 k e :=
    funext fun a => Fin.ext (by
      match a with
      | ⟨0, _⟩ => exact (rhs_proj_0 _ _).trans hk
      | ⟨1, _⟩ => exact rhs_proj_1 _ _)
  rw [el, er]

/-- A loaded block [1, 1, 1024, 512] reshaped to a matrix reads, at (l, d), the block at (0, 0, l, d). -/
theorem shapeCast_block_apply (v : Vec Ideal S1x1x1024x512 .f32) (l : Fin 1024) (d : Fin 512) :
    shapeCast S1024x512 v shapeCasts_S1x1x1024x512_S1024x512 (ix2 l d) = v (ix4 0 0 l d) :=
  shapeCast_apply v _ _ _ (by
    rw [Shape.rowMajor_val_four, Shape.rowMajor_val_two]
    show ((0 * 1 + 0) * 1024 + l.val) * 512 + d.val = l.val * 512 + d.val
    simp only [Nat.zero_mul, Nat.zero_add])

/-- The bias broadcast over the rows reads, at (l, e), the bias at e. -/
theorem bias_apply (b : Vec Ideal S128 .f32) (l : Fin 1024) (e : Fin 128) :
    broadcastTo S1024x128 (shapeCast S1x128 b shapeCasts_S128_S1x128) broadcasts_S1x128_S1024x128 (ix2 l e) = b (ix1 e) :=
  (broadcastTo_1b_ab_apply _ _ l e).trans (shapeCast_a_1a_apply b _ 0 e)

/-- Coordinate e of projected row l, as the body computes it. -/
theorem proj_apply (v : Vec Ideal S1x1x1024x512 .f32) (v4 : Vec Ideal S512x128 .f32) (v5 : Vec Ideal S128 .f32)
    (l : Fin 1024) (e : Fin 128) :
    addf (F := Ideal) (matmul (F := Ideal) dot_S1024x512_S512x128_S1024x128_1_0_0_1_n_n none
            (truncf (F := Ideal) .bf16 (shapeCast S1024x512 v shapeCasts_S1x1x1024x512_S1024x512) bitsLt_bf16_f32)
            (truncf (F := Ideal) .bf16 v4 bitsLt_bf16_f32) (constant S1024x128 .f32 0x00000000#32))
        (broadcastTo S1024x128 (shapeCast S1x128 v5 shapeCasts_S128_S1x128) broadcasts_S1x128_S1024x128) (ix2 l e)
      = Cert.Align.proj (fun d e => v4 (ix2 d e)) (fun e => v5 (ix1 e)) (fun l d => v (ix4 0 0 l d)) l e := by
  unfold Cert.Align.proj
  rw [addf_apply, matmul_proj_apply, bias_apply]
  refine congrArg (· + _) (Finset.sum_congr rfl fun d _ => ?_)
  rw [truncf_apply, truncf_apply, shapeCast_block_apply]

/-! ## The squared lengths -/

/-- A row's sum of squares at l. -/
theorem rowSq_apply (y : FVec Ideal S1024x128 .f32) (l : Fin 1024) :
    multiReduction (F := Ideal) .add [1] S1024 (mulf y y) 0x00000000#32 reduces_S1024x128_S1024 (.inl rfl) rfl (ix1 l)
      = ∑ e : Fin 128, y (ix2 l e) * y (ix2 l e) := by
  refine (Ideal.multiReduction_add_single _ _ _ _ _ _).trans ?_
  refine Finset.sum_congr rfl fun k _ => ?_
  have hi : reduces_S1024x128_S1024.lift (ix1 l) k = ix2 l k :=
    funext fun a => Fin.ext (by match a with | ⟨0, _⟩ => rfl | ⟨1, _⟩ => rfl)
  rw [mulf_apply]
  exact congrArg (fun i => y i * y i) hi

/-- A vector [1024] reshaped to a column reads, at (l, u), the vector at l. -/
theorem shapeCast_col_apply (r : FVec Ideal S1024 .f32) (l : Fin 1024) (u : Fin 1) :
    shapeCast S1024x1 r shapeCasts_S1024_S1024x1 (ix2 l u) = r (ix1 l) :=
  shapeCast_apply r _ _ _ (by
    have hu : u.val = 0 := by omega
    rw [Shape.rowMajor_val_two, Shape.rowMajor_val_one]
    show l.val = l.val * 1 + u.val
    rw [hu, Nat.mul_one, Nat.add_zero])

/-- A column broadcast over the columns reads, at (l, m), the column at l. -/
theorem colBroadcast_apply (c : FVec Ideal S1024x1 .f32) (l m : Fin 1024) :
    broadcastTo S1024x1024 c broadcasts_S1024x1_S1024x1024 (ix2 l m) = c (ix2 l (0 : Fin 1)) :=
  broadcastTo_apply c _ (ix2 l m) (ix2 l (0 : Fin 1)) fun ax => by
    match ax with
    | ⟨0, _⟩ => rfl
    | ⟨1, _⟩ => rfl

/-- The squared lengths of the first sequence's rows, spread over the columns. -/
theorem rowNorm_apply (y : FVec Ideal S1024x128 .f32) (l m : Fin 1024) :
    broadcastTo S1024x1024
        (shapeCast S1024x1 (multiReduction (F := Ideal) .add [1] S1024 (mulf y y) 0x00000000#32 reduces_S1024x128_S1024 (.inl rfl) rfl)
          shapeCasts_S1024_S1024x1) broadcasts_S1024x1_S1024x1024 (ix2 l m)
      = ∑ e : Fin 128, y (ix2 l e) * y (ix2 l e) :=
  (colBroadcast_apply _ l m).trans ((shapeCast_col_apply _ l 0).trans (rowSq_apply y l))

/-- The squared lengths of the second sequence's rows, laid along a row and spread over the rows. -/
theorem colNorm_apply (y : FVec Ideal S1024x128 .f32) (l m : Fin 1024) :
    broadcastTo S1024x1024
        (transpose S1x1024 [1, 0]
          (shapeCast S1024x1 (multiReduction (F := Ideal) .add [1] S1024 (mulf y y) 0x00000000#32 reduces_S1024x128_S1024 (.inl rfl) rfl)
            shapeCasts_S1024_S1024x1) transposes_S1024x1_p1_0_S1x1024) broadcasts_S1x1024_S1024x1024 (ix2 l m)
      = ∑ e : Fin 128, y (ix2 m e) * y (ix2 m e) :=
  (broadcastTo_1b_ab_apply _ _ l m).trans
    ((transpose_ix2_apply _ _ (0 : Fin 1) m).trans ((shapeCast_col_apply _ m 0).trans (rowSq_apply y m)))

/-! ## The inner products -/

/-- The product of the two projected sequences, the second transposed, at (l, m): the sum over the 128 coordinates. -/
theorem matmul_cross_apply (y z : FVec Ideal S1024x128 .bf16) (l m : Fin 1024) :
    matmul (F := Ideal) dot_S1024x128_S1024x128_S1024x1024_1_1_0_0_n_n none y z (constant S1024x1024 .f32 0x00000000#32) (ix2 l m)
      = ∑ e : Fin 128, y (ix2 l e) * z (ix2 m e) := by
  refine (Ideal.matmul_constant_zero_apply dot_S1024x128_S1024x128_S1024x1024_1_1_0_0_n_n none y z (ix2 l m)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 l m) ((contrEquiv1 dot_S1024x128_S1024x128_S1024x1024_1_1_0_0_n_n 128 rfl rfl).symm k) = ix2 l k :=
    funext fun a => Fin.ext (by
      match a with
      | ⟨0, _⟩ => exact lhs_cross_0 _ _
      | ⟨1, _⟩ => exact (lhs_cross_1 _ _).trans hk)
  have er : dot_S1024x128_S1024x128_S1024x1024_1_1_0_0_n_n.rhsIdx (ix2 l m) ((contrEquiv1 dot_S1024x128_S1024x128_S1024x1024_1_1_0_0_n_n 128 rfl rfl).symm k) = ix2 m k :=
    funext fun a => Fin.ext (by
      match a with
      | ⟨0, _⟩ => exact rhs_cross_0 _ _
      | ⟨1, _⟩ => exact (rhs_cross_1 _ _).trans hk)
  rw [el, er]

/-! ## The distances -/

/-- From the two projected sequences P and Q on: the squared lengths, the inner products, and their combination. -/
theorem dist_of_proj (P Q : FVec Ideal S1024x128 .f32) (l m : Fin 1024) :
    subf (F := Ideal)
        (addf
          (broadcastTo S1024x1024
            (shapeCast S1024x1 (multiReduction (F := Ideal) .add [1] S1024 (mulf P P) 0x00000000#32 reduces_S1024x128_S1024 (.inl rfl) rfl)
              shapeCasts_S1024_S1024x1) broadcasts_S1024x1_S1024x1024)
          (broadcastTo S1024x1024
            (transpose S1x1024 [1, 0]
              (shapeCast S1024x1 (multiReduction (F := Ideal) .add [1] S1024 (mulf Q Q) 0x00000000#32 reduces_S1024x128_S1024 (.inl rfl) rfl)
                shapeCasts_S1024_S1024x1) transposes_S1024x1_p1_0_S1x1024) broadcasts_S1x1024_S1024x1024))
        (mulf (broadcast S1024x1024 (Scalar.ofBits .f32 0x40000000#32))
          (matmul (F := Ideal) dot_S1024x128_S1024x128_S1024x1024_1_1_0_0_n_n none (truncf .bf16 P bitsLt_bf16_f32) (truncf .bf16 Q bitsLt_bf16_f32)
            (constant S1024x1024 .f32 0x00000000#32))) (ix2 l m)
      = ((∑ e : Fin 128, P (ix2 l e) * P (ix2 l e)) + ∑ e : Fin 128, Q (ix2 m e) * Q (ix2 m e))
          - Cert.Align.two * ∑ e : Fin 128, P (ix2 l e) * Q (ix2 m e) := by
  rw [subf_apply, addf_apply, mulf_apply, rowNorm_apply, colNorm_apply, matmul_cross_apply]
  rfl

/-- Entry (l, m) of the matrix the body's first part computes is the squared distance between projected row l of
    the first loaded sequence and projected row m of the second. -/
theorem dist_apply (v0 v2 : Vec Ideal S1x1x1024x512 .f32) (v4 : Vec Ideal S512x128 .f32) (v5 : Vec Ideal S128 .f32)
    (l m : Fin 1024) :
    k0_pay2 (F := Ideal) v0 v2 v4 v5 (ix2 l m)
      = Cert.Align.dist (fun l d => v0 (ix4 0 0 l d)) (fun l d => v2 (ix4 0 0 l d)) (fun d e => v4 (ix2 d e))
          (fun e => v5 (ix1 e)) l m := by
  unfold k0_pay2
  refine (dist_of_proj _ _ l m).trans ?_
  unfold Cert.Align.dist Cert.Align.sqNorm Cert.Align.cross
  simp only [proj_apply]

end Cert.KernelIdeal.Body

end
-- ==== Proof.KernelScore.lean ====
import proofs.«419952_j31868657336518_3_alg».proof.Proof.Gen.KernelIdeal.Skeleton
import proofs.«419952_j31868657336518_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- Which pairs the kernel keeps: the product of the two rows' mask values, as floats, exceeds one half. -/
def keepBit (a b : Fin 1024 → EReal) (l m : Fin 1024) : BitVec 1 :=
  Ideal.cmp .ogt (a l * b m) (Ideal.ofBits .f32 0x3F000000#32)

/-! ## Arrays given by their entries -/

/-- The 1024 × 1024 array whose entry (l, m) is `f l m`. -/
def mat {α : Type} (f : Fin 1024 → Fin 1024 → α) : S1024x1024.Idx → α := fun i => f (i 0) (i 1)

/-- The array of length 1024 whose entry l is `g l`. -/
def vec {α : Type} (g : Fin 1024 → α) : S1024.Idx → α := fun i => g (i 0)

theorem mat_apply {α : Type} (f : Fin 1024 → Fin 1024 → α) (l m : Fin 1024) : mat f (ix2 l m) = f l m := rfl
theorem vec_apply {α : Type} (g : Fin 1024 → α) (l : Fin 1024) : vec g (ix1 l) = g l := rfl

/-! ## Reshapes and broadcasts of a row and of a column, read at an entry -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row of 1024 entries stood up as a column and spread over the columns: entry (l, m) is the row's entry l. -/
theorem rowSpread (g : S1024.Idx → EReal) (l m : Fin 1024) :
    broadcastTo S1024x1024 (shapeCast S1024x1 g shapeCasts_S1024_S1024x1) broadcasts_S1024x1_S1024x1024 (ix2 l m)
      = g (ix1 l) :=
  (broadcastTo_a1_ab_apply _ _ l m).trans (shapeCast_a_a1_apply g _ l 0)

/-- A row of 1024 entries spread over the rows: entry (l, m) is the row's entry m. -/
theorem colSpread (g : S1024.Idx → EReal) (l m : Fin 1024) :
    broadcastTo S1024x1024 (shapeCast S1x1024 g shapeCasts_S1024_S1x1024) broadcasts_S1x1024_S1024x1024 (ix2 l m)
      = g (ix1 m) :=
  (broadcastTo_1b_ab_apply _ _ l m).trans (shapeCast_a_1a_apply g _ 0 m)

/-! ## The body's operations on arrays given by their entries -/

/-- The mask of kept pairs: the two mask rows spread over the square, multiplied and compared with one half. -/
theorem keep_eq (a : FVec Ideal S1024 .f32) (b : Vec Ideal S1x1x1024 .f32) :
    cmpf .ogt
        (mulf (broadcastTo S1024x1024 (shapeCast S1024x1 a shapeCasts_S1024_S1024x1) broadcasts_S1024x1_S1024x1024)
          (broadcastTo S1024x1024 (shapeCast S1x1024 (shapeCast S1024 b shapeCasts_S1x1x1024_S1024) shapeCasts_S1024_S1x1024)
            broadcasts_S1x1024_S1024x1024))
        (broadcast S1024x1024 (Scalar.ofBits .f32 0x3F000000#32))
      = mat (keepBit (fun l => a (ix1 l)) (fun m => b (ix3 0 0 m))) := by
  funext i
  obtain ⟨l, m, rfl⟩ : ∃ l m : Fin 1024, i = ix2 l m := ⟨i 0, i 1, eq_ix2 i⟩
  rw [cmpf_apply, mulf_apply, broadcast_apply, rowSpread, colSpread, shapeCast_11a_a_apply]
  rfl

/-- The logits: minus the distance where the pair is kept, the fill elsewhere. -/
theorem logit_eq (K : Fin 1024 → Fin 1024 → BitVec 1) (D : FVec Ideal S1024x1024 .f32) :
    select (mat K) (subf (broadcast S1024x1024 (Scalar.ofBits .f32 0x00000000#32)) D)
        (broadcast S1024x1024 (Scalar.ofBits .f32 0xCE6E6B28#32))
      = mat (Cert.Align.logit K (fun l m => D (ix2 l m))) := by
  funext i
  obtain ⟨l, m, rfl⟩ : ∃ l m : Fin 1024, i = ix2 l m := ⟨i 0, i 1, eq_ix2 i⟩
  rw [select_apply, subf_apply, broadcast_apply, broadcast_apply]
  show Scalar.select (K l m) (Ideal.ofBits .f32 0x00000000#32 - D (ix2 l m)) (Ideal.ofBits .f32 0xCE6E6B28#32) = _
  rw [Ideal.ofBits_zero_f32, zero_sub]
  rfl

/-- The largest entry of each row. -/
theorem rowMax_mat (f : Fin 1024 → Fin 1024 → EReal) :
    multiReduction (F := Ideal) .maximumf [1] S1024 (mat f : FVec Ideal S1024x1024 .f32) 0xFF800000#32
        reduces_S1024x1024_S1024 (.inl rfl) rfl
      = vec (fun l => (Finset.univ : Finset (Fin 1024)).fold max Cert.Align.floor (fun m => f l m)) := by
  funext j
  obtain ⟨l, rfl⟩ : ∃ l : Fin 1024, j = ix1 l := ⟨j 0, eq_ix1 j⟩
  refine (Ideal.multiReduction_maximumf_single (mat f : FVec Ideal S1024x1024 .f32) _ reduces_S1024x1024_S1024 _ _ (ix1 l)).trans ?_
  rfl

/-- The largest entry of each column. -/
theorem colMax_mat (f : Fin 1024 → Fin 1024 → EReal) :
    multiReduction (F := Ideal) .maximumf [0] S1024 (mat f : FVec Ideal S1024x1024 .f32) 0xFF800000#32
        reduces_S1024x1024_S1024_2 (.inl rfl) rfl
      = vec (fun m => (Finset.univ : Finset (Fin 1024)).fold max Cert.Align.floor (fun l => f l m)) := by
  funext j
  obtain ⟨m, rfl⟩ : ∃ m : Fin 1024, j = ix1 m := ⟨j 0, eq_ix1 j⟩
  refine (Ideal.multiReduction_maximumf_single (mat f : FVec Ideal S1024x1024 .f32) _ reduces_S1024x1024_S1024_2 _ _ (ix1 m)).trans ?_
  rfl

/-- The sum of each row. -/
theorem rowSum_mat (f : Fin 1024 → Fin 1024 → EReal) :
    multiReduction (F := Ideal) .add [1] S1024 (mat f : FVec Ideal S1024x1024 .f32) 0x00000000#32
        reduces_S1024x1024_S1024 (.inl rfl) rfl
      = vec (fun l => ∑ m : Fin 1024, f l m) := by
  funext j
  obtain ⟨l, rfl⟩ : ∃ l : Fin 1024, j = ix1 l := ⟨j 0, eq_ix1 j⟩
  refine (Ideal.multiReduction_add_single (mat f : FVec Ideal S1024x1024 .f32) _ reduces_S1024x1024_S1024 _ _ (ix1 l)).trans ?_
  rfl

/-- The sum of each column. -/
theorem colSum_mat (f : Fin 1024 → Fin 1024 → EReal) :
    multiReduction (F := Ideal) .add [0] S1024 (mat f : FVec Ideal S1024x1024 .f32) 0x00000000#32
        reduces_S1024x1024_S1024_2 (.inl rfl) rfl
      = vec (fun m => ∑ l : Fin 1024, f l m) := by
  funext j
  obtain ⟨m, rfl⟩ : ∃ m : Fin 1024, j = ix1 m := ⟨j 0, eq_ix1 j⟩
  refine (Ideal.multiReduction_add_single (mat f : FVec Ideal S1024x1024 .f32) _ reduces_S1024x1024_S1024_2 _ _ (ix1 m)).trans ?_
  rfl

/-- A row spread over the columns of the square. -/
theorem rowSpread_vec (g : Fin 1024 → EReal) :
    broadcastTo S1024x1024 (shapeCast S1024x1 (vec g) shapeCasts_S1024_S1024x1) broadcasts_S1024x1_S1024x1024
      = mat (fun l _ => g l) := by
  funext i
  obtain ⟨l, m, rfl⟩ : ∃ l m : Fin 1024, i = ix2 l m := ⟨i 0, i 1, eq_ix2 i⟩
  exact rowSpread (vec g) l m

/-- A row spread over the rows of the square. -/
theorem colSpread_vec (g : Fin 1024 → EReal) :
    broadcastTo S1024x1024 (shapeCast S1x1024 (vec g) shapeCasts_S1024_S1x1024) broadcasts_S1x1024_S1024x1024
      = mat (fun _ m => g m) := by
  funext i
  obtain ⟨l, m, rfl⟩ : ∃ l m : Fin 1024, i = ix2 l m := ⟨i 0, i 1, eq_ix2 i⟩
  exact colSpread (vec g) l m

/-- Entrywise difference, exponential, quotient, sum and product. -/
theorem sub_mat (f g : Fin 1024 → Fin 1024 → EReal) :
    subf (mat f : FVec Ideal S1024x1024 .f32) (mat g) = mat (fun l m => f l m - g l m) := rfl
theorem exp_mat (f : Fin 1024 → Fin 1024 → EReal) :
    exp (mat f : FVec Ideal S1024x1024 .f32) = mat (fun l m => Ideal.exp (f l m)) := rfl
theorem div_mat (f g : Fin 1024 → Fin 1024 → EReal) :
    divf (mat f : FVec Ideal S1024x1024 .f32) (mat g) = mat (fun l m => Ideal.div (f l m) (g l m)) := rfl
theorem add_mat (f g : Fin 1024 → Fin 1024 → EReal) :
    addf (mat f : FVec Ideal S1024x1024 .f32) (mat g) = mat (fun l m => f l m + g l m) := rfl
theorem mul_mat (f g : Fin 1024 → Fin 1024 → EReal) :
    mulf (mat f : FVec Ideal S1024x1024 .f32) (mat g) = mat (fun l m => f l m * g l m) := rfl

/-- The attention: the given entries where the pair is kept, zero elsewhere. -/
theorem select_mat (K : Fin 1024 → Fin 1024 → BitVec 1) (f : Fin 1024 → Fin 1024 → EReal) :
    select (mat K) (mat f : FVec Ideal S1024x1024 .f32) (broadcast S1024x1024 (Scalar.ofBits .f32 0x00000000#32))
      = mat (fun l m => Scalar.select (K l m) (f l m) 0) := by
  funext i
  obtain ⟨l, m, rfl⟩ : ∃ l m : Fin 1024, i = ix2 l m := ⟨i 0, i 1, eq_ix2 i⟩
  rw [select_apply, broadcast_apply]
  show Scalar.select (K l m) (f l m) (Ideal.ofBits .f32 0x00000000#32) = _
  rw [Ideal.ofBits_zero_f32]
  rfl

/-- The sum of all entries of the square, taken after a reshape to one slab and read out of a one-entry block, is the
    double sum over rows and columns. -/
theorem total_mat (f : Fin 1024 → Fin 1024 → EReal) :
    extractAt ![0, 0, 0]
        (shapeCast S1x1x1
          (multiReduction (F := Ideal) .add [1, 2] S1
            (shapeCast S1x1024x1024 (mat f : FVec Ideal S1024x1024 .f32) shapeCasts_S1024x1024_S1x1024x1024)
            0x00000000#32 reduces_S1x1024x1024_S1 (.inl rfl) rfl)
          shapeCasts_S1_S1x1x1)
        inpos_S1x1x1_p0_0_0
      = ∑ l : Fin 1024, ∑ m : Fin 1024, f l m := by
  show multiReduction (F := Ideal) .add [1, 2] S1
      (shapeCast S1x1024x1024 (mat f : FVec Ideal S1024x1024 .f32) shapeCasts_S1024x1024_S1x1024x1024)
      0x00000000#32 reduces_S1x1024x1024_S1 (.inl rfl) rfl _ = _
  refine (Ideal.multiReduction_add_total (φ := .f32) _ 0x00000000#32 reduces_S1x1024x1024_S1
    (fun b => match b with | ⟨0, _⟩ => rfl) (.inl rfl) rfl _).trans ?_
  refine (Equiv.sum_comp (Shape.reshapeEquiv shapeCasts_S1024x1024_S1x1024x1024) (mat f)).trans ?_
  exact sum_idx2 (mat f)

/-! ## The assembly -/

/-- The body's scalar, spread over 128 lanes, is the score of the matrix of distances under the keep bits of the two
    mask rows. Each operation of the body, innermost first, is rewritten to the array of the entries it computes; what
    is left is the score's definition unfolded. -/
theorem pay4_eq (v32 : FVec Ideal S1024x1024 .f32) (v34 : FVec Ideal S1024 .f32) (v35 : Vec Ideal S1x1x1024 .f32) :
    k0_pay4 (F := Ideal) v32 v34 v35
      = fun _ => Cert.Align.scoreLogit (keepBit (fun l => v34 (ix1 l)) (fun m => v35 (ix3 0 0 m)))
          (fun l m => v32 (ix2 l m)) := by
  unfold k0_pay4
  simp only [keep_eq, logit_eq]
  rw [rowMax_mat, colMax_mat, rowSpread_vec, colSpread_vec, sub_mat, sub_mat, exp_mat, exp_mat, rowSum_mat, colSum_mat,
    rowSpread_vec, colSpread_vec, div_mat, div_mat, add_mat, mul_mat, sub_mat, select_mat, mul_mat, total_mat, total_mat]
  rfl

/-- Every lane of the block the body stores is the score, numerator over the logits, of the matrix of distances
    and the two mask rows it was given. -/
theorem score_apply (v32 : FVec Ideal S1024x1024 .f32) (v33 v35 : Vec Ideal S1x1x1024 .f32) (y : S1x1x128.Idx) :
    k0_pay1 (F := Ideal) (k0_pay4 v32 (k0_pay3 v33) v35) y
      = Cert.Align.scoreLogit (keepBit (fun l => v33 (ix3 0 0 l)) (fun m => v35 (ix3 0 0 m)))
          (fun l m => v32 (ix2 l m)) := by
  have h3 : (fun l : Fin 1024 => k0_pay3 (F := Ideal) v33 (ix1 l)) = fun l => v33 (ix3 0 0 l) :=
    funext fun l => shapeCast_11a_a_apply v33 _ l
  rw [pay4_eq, h3]
  rfl

end Cert.KernelIdeal.Body

end
-- ==== Proof.KernelArray.lean ====
/-
  From the blocks to the kernel's result.  The kernel visits eight grid points, one per batch element.  At point t
  it is handed block t of the sequences (both sequences of batch t), block t of the mask as floats (its two rows),
  the whole weights and the whole bias, and stores one block of 128 lanes, every lane the score of batch t.  This
  module reads each loaded half-block at an index of its array, shows that what point t writes back is block t of
  ONE whole array (row b, every lane: batch b's score), that the eight blocks tile that array, and that the lines
  after the region (keep lane 0 of each row, drop the unit axes) leave batch b's score at position b.  The mask the
  region finds is the argument's bits read as the floats zero and one.
-/
import proofs.«419952_j31868657336518_3_alg».proof.Proof.Gen.KernelIdeal.Frame
import proofs.«419952_j31868657336518_3_alg».proof.Proof.KernelDist
import proofs.«419952_j31868657336518_3_alg».proof.Proof.KernelScore
import Idealize.ShloMosaic.Lib.Pipeline.Value
import Idealize.ShloMosaic.Lib.ValueIdx
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Body

/-- Batch b's score from four whole arrays: the sequences, the mask as floats, the weights and the bias. -/
def scoreAt (a0 : S8x2x1024x512.Idx → EReal) (a1 : S8x2x1024.Idx → EReal) (a2 : S512x128.Idx → EReal)
    (a3 : S128.Idx → EReal) (b : Fin 8) : EReal :=
  Cert.Align.scoreLogit (keepBit (fun l => a1 (ix3 b 0 l)) (fun m => a1 (ix3 b 1 m)))
    (Cert.Align.dist (fun l d => a0 (ix4 b 0 l d)) (fun l d => a0 (ix4 b 1 l d)) (fun d e => a2 (ix2 d e))
      (fun e => a3 (ix1 e)))

theorem hz3 : (![0, 0, 0] : Fin 3 → Nat) = fun _ => 0 := funext fun a => by fin_cases a <;> rfl

/-- The block the body stores, for ANY input blocks: every lane holds the score of the one batch element the
    blocks hold, its two sequences the two halves of the first block and its two mask rows the two rows of the
    second. -/
theorem out_apply (x0 : Vec Ideal S1x2x1024x512 .f32) (x1 : Vec Ideal S1x2x1024 .f32) (x2 : Vec Ideal S512x128 .f32)
    (x3 : Vec Ideal S128 .f32) (y : S1x1x128.Idx) :
    out0_4 x0 x1 x2 x3 y
      = Cert.Align.scoreLogit (keepBit (fun l => x1 (ix3 0 0 l)) (fun m => x1 (ix3 0 1 m)))
          (Cert.Align.dist (fun l d => x0 (ix4 0 0 l d)) (fun l d => x0 (ix4 0 1 l d)) (fun d e => x2 (ix2 d e))
            (fun e => x3 (ix1 e))) := by
  unfold out0_4
  rw [View.canon_unit_zero hz3]
  refine (score_apply _ _ _ y).trans ?_
  congr 1
  · funext l m'
    refine congrArg₂ (fun a b => Ideal.cmp .ogt (a * b) (Ideal.ofBits .f32 0x3F000000#32)) ?_ ?_
    · show x1 (r0_4.emb (ix3 0 0 l)) = x1 (ix3 0 0 l)
      exact congrArg x1 (funext fun a => Fin.ext (by
        match a with
        | ⟨0, _⟩ => rfl
        | ⟨1, _⟩ => rfl
        | ⟨2, _⟩ => show 0 + 1 * l.val = l.val; omega))
    · show x1 (r0_5.emb (ix3 0 0 m')) = x1 (ix3 0 1 m')
      exact congrArg x1 (funext fun a => Fin.ext (by
        match a with
        | ⟨0, _⟩ => rfl
        | ⟨1, _⟩ => rfl
        | ⟨2, _⟩ => show 0 + 1 * m'.val = m'.val; omega))
  · funext l m'
    refine (dist_apply _ _ _ _ l m').trans ?_
    have e0 : ∀ (l : Fin 1024) (d : Fin 512), View.ld x0 r0_0 (ix4 0 0 l d) = x0 (ix4 0 0 l d) := fun l d => by
      show x0 (r0_0.emb (ix4 0 0 l d)) = x0 (ix4 0 0 l d)
      exact congrArg x0 (funext fun a => Fin.ext (by
        match a with
        | ⟨0, _⟩ => rfl
        | ⟨1, _⟩ => rfl
        | ⟨2, _⟩ => show 0 + 1 * l.val = l.val; omega
        | ⟨3, _⟩ => show 0 + 1 * d.val = d.val; omega))
    have e1 : ∀ (l : Fin 1024) (d : Fin 512), View.ld x0 r0_1 (ix4 0 0 l d) = x0 (ix4 0 1 l d) := fun l d => by
      show x0 (r0_1.emb (ix4 0 0 l d)) = x0 (ix4 0 1 l d)
      exact congrArg x0 (funext fun a => Fin.ext (by
        match a with
        | ⟨0, _⟩ => rfl
        | ⟨1, _⟩ => rfl
        | ⟨2, _⟩ => show 0 + 1 * l.val = l.val; omega
        | ⟨3, _⟩ => show 0 + 1 * d.val = d.val; omega))
    have e2 : ∀ (d : Fin 512) (e : Fin 128), View.ld x2 r0_2 (ix2 d e) = x2 (ix2 d e) := fun d e => by
      show x2 (r0_2.emb (ix2 d e)) = x2 (ix2 d e)
      exact congrArg x2 (funext fun a => Fin.ext (by
        match a with
        | ⟨0, _⟩ => show 0 + 1 * d.val = d.val; omega
        | ⟨1, _⟩ => show 0 + 1 * e.val = e.val; omega))
    have e3 : ∀ (e : Fin 128), View.ld x3 r0_3 (ix1 e) = x3 (ix1 e) := fun e => by
      show x3 (r0_3.emb (ix1 e)) = x3 (ix1 e)
      exact congrArg x3 (funext fun a => Fin.ext (by
        match a with
        | ⟨0, _⟩ => show 0 + 1 * e.val = e.val; omega))
    simp only [e0, e1, e2, e3]

/-! ## From the blocks to the array -/

variable (m : (ℓ : Loc nD τ sig) → Buf (Elt Ideal) ℓ) (ρ : Dev nD → PrngReg)

/-- The grid point as a batch number. -/
def batch (t : Fin cfg0.N) : Fin 8 := ⟨t.val, lt_of_lt_of_eq t.isLt N_0⟩

/-- The printed index maps, decided over the eight grid points: the sequences', the mask's and the result's
    blocks move with the point along the batch axis and nowhere else; the weights' and the bias's stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- The result array: every lane of row b holds batch b's score of the arrays. -/
def outArr (a0 : S8x2x1024x512.Idx → EReal) (a1 : S8x2x1024.Idx → EReal) (a2 : S512x128.Idx → EReal)
    (a3 : S128.Idx → EReal) : S8x1x128.Idx → EReal := fun i => scoreAt a0 a1 a2 a3 ⟨(i 0).val, (i 0).isLt⟩

/-- WHAT POINT t WRITES BACK is block t of the result array of the arrays as the region finds them. -/
theorem flushed_eq (c : Dev nD) (t : Fin cfg0.N) :
    (dats m 0 c).flushed 4 t = ((cfg0.win 4).blk t).view.read (Elt Ideal)
      (outArr (V m c main_arg0) (V m c main_v0) (V m c main_arg2) (V m c main_arg3)) := by
  show (cfg0.win 4).cut (grid0.coords t) ((dats m 0 c).after 4 t) = _
  rw [after0_4]
  obtain ⟨a0, a1, a2, a3, b0, b1, b2, c0, c1, d0, o0, o1, o2⟩ := idx_facts t
  funext y
  refine (out_apply (iblk m c 0 t) (iblk m c 1 t) (iblk m c 2 t) (iblk m c 3 t) y).trans ?_
  show _ = scoreAt (V m c main_arg0) (V m c main_v0) (V m c main_arg2) (V m c main_arg3) ⟨((((cfg0.win 4).blk t).view.emb y) 0).val, _⟩
  have hb : (⟨((((cfg0.win 4).blk t).view.emb y) 0).val, ((((cfg0.win 4).blk t).view.emb y) 0).isLt⟩ : Fin 8) = batch t := Fin.ext (by
    show win0_4.index t (0 : Fin 3) * 1 + 1 * (y 0).val = t.val
    have hy : (y 0).val < 1 := (y 0).isLt
    omega)
  rw [hb]
  unfold scoreAt
  have r0 : ∀ (s : Fin 2) (l : Fin 1024) (d : Fin 512),
      iblk m c 0 t (ix4 0 s l d) = V m c main_arg0 (ix4 (batch t) s l d) := fun s l d => by
    show V m c main_arg0 (((cfg0.win 0).blk t).view.emb (ix4 0 s l d)) = V m c main_arg0 (ix4 (batch t) s l d)
    exact congrArg (V m c main_arg0) (funext fun a => Fin.ext (by
      match a with
      | ⟨0, _⟩ => show win0_0.index t (0 : Fin 4) * 1 + 1 * 0 = t.val; omega
      | ⟨1, _⟩ => show win0_0.index t (1 : Fin 4) * 2 + 1 * s.val = s.val; omega
      | ⟨2, _⟩ => show win0_0.index t (2 : Fin 4) * 1024 + 1 * l.val = l.val; omega
      | ⟨3, _⟩ => show win0_0.index t (3 : Fin 4) * 512 + 1 * d.val = d.val; omega))
  have r1 : ∀ (s : Fin 2) (l : Fin 1024), iblk m c 1 t (ix3 0 s l) = V m c main_v0 (ix3 (batch t) s l) := fun s l => by
    show V m c main_v0 (((cfg0.win 1).blk t).view.emb (ix3 0 s l)) = V m c main_v0 (ix3 (batch t) s l)
    exact congrArg (V m c main_v0) (funext fun a => Fin.ext (by
      match a with
      | ⟨0, _⟩ => show win0_1.index t (0 : Fin 3) * 1 + 1 * 0 = t.val; omega
      | ⟨1, _⟩ => show win0_1.index t (1 : Fin 3) * 2 + 1 * s.val = s.val; omega
      | ⟨2, _⟩ => show win0_1.index t (2 : Fin 3) * 1024 + 1 * l.val = l.val; omega))
  have r2 : ∀ (d : Fin 512) (e : Fin 128), iblk m c 2 t (ix2 d e) = V m c main_arg2 (ix2 d e) := fun d e => by
    show V m c main_arg2 (((cfg0.win 2).blk t).view.emb (ix2 d e)) = V m c main_arg2 (ix2 d e)
    exact congrArg (V m c main_arg2) (funext fun a => Fin.ext (by
      match a with
      | ⟨0, _⟩ => show win0_2.index t (0 : Fin 2) * 512 + 1 * d.val = d.val; omega
      | ⟨1, _⟩ => show win0_2.index t (1 : Fin 2) * 128 + 1 * e.val = e.val; omega))
  have r3 : ∀ (e : Fin 128), iblk m c 3 t (ix1 e) = V m c main_arg3 (ix1 e) := fun e => by
    show V m c main_arg3 (((cfg0.win 3).blk t).view.emb (ix1 e)) = V m c main_arg3 (ix1 e)
    exact congrArg (V m c main_arg3) (funext fun a => Fin.ext (by
      match a with
      | ⟨0, _⟩ => show win0_3.index t (0 : Fin 1) * 128 + 1 * e.val = e.val; omega))
  simp only [r0, r1, r2, r3]

/-- An index of the result array is in point t's block iff each coordinate is in the block's range on its axis. -/
theorem mem_blk (t : Fin cfg0.N) (i : S8x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v1).slice (win0_4.rect t)).set ↔ _
  rw [View.set_slice_whole, Rect.mem_set_unit]
  exact Iff.rfl

/-- The eight blocks tile the result array: row b lies in point b's block. -/
theorem cover (i : S8x1x128.Idx) :
    ∃ t : Fin cfg0.N, (cfg0.win 4).flush t = true ∧ i ∈ ((cfg0.win 4).blk t).view.set := by
  have h0 : (i 0).val < 8 := (i 0).isLt
  have h1 : (i 1).val < 1 := (i 1).isLt
  have h2 : (i 2).val < 128 := (i 2).isLt
  refine ⟨⟨(i 0).val, lt_of_lt_of_eq h0 N_0.symm⟩, flush0_4 _, ?_⟩
  rw [mem_blk]
  obtain ⟨-, -, -, -, -, -, -, -, -, -, o0, o1, o2⟩ := idx_facts ⟨(i 0).val, lt_of_lt_of_eq h0 N_0.symm⟩
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    have e : win0_4.index ⟨(i 0).val, lt_of_lt_of_eq h0 N_0.symm⟩ (0 : Fin 3) = (i 0).val := o0
    omega
  | ⟨1, _⟩ =>
    show win0_4.index ⟨(i 0).val, _⟩ (1 : Fin 3) * 1 ≤ (i 1).val ∧ (i 1).val < win0_4.index ⟨(i 0).val, _⟩ (1 : Fin 3) * 1 + 1
    omega
  | ⟨2, _⟩ =>
    show win0_4.index ⟨(i 0).val, _⟩ (2 : Fin 3) * 128 ≤ (i 2).val ∧ (i 2).val < win0_4.index ⟨(i 0).val, _⟩ (2 : Fin 3) * 128 + 128
    omega

/-- THE RESULT ARRAY after the run. -/
theorem final (c : Dev nD) : (dats m 0 c).arrAt 4 cfg0.N
    = outArr (V m c main_arg0) (V m c main_v0) (V m c main_arg2) (V m c main_arg3) :=
  (dats m 0 c).arrAt_eq_of_cover 4 _ (fun t _ => flushed_eq m c t) cover

/-- The mask as the region finds it: each bit as the float zero or one. -/
theorem V_mask (c : Dev nD) : (V m c main_v0 : S8x2x1024.Idx → EReal)
    = uitofp (F := Ideal) .f32 (m ((c : Thread nD τ).loc main_arg1)) := by
  show StableHlo.after hostOps0 (fun b => m (c, b)) (Proc.devRef .tc main_v0) = _
  after_results

/-- What the lines after the region leave in the result buffer. -/
theorem tail_v3 (c : Dev nD) :
    (Pipeline.afterTail₀ cfgs (dats m) 0 (V0 m) [hostOps1] c main_v3 : S8.Idx → EReal)
      = fun i => scoreAt (V m c main_arg0) (V m c main_v0) (V m c main_arg2) (V m c main_arg3) ⟨(i 0).val, (i 0).isLt⟩ := by
  unfold Pipeline.afterTail₀
  show StableHlo.after hostOps1 _ (Proc.devRef .tc main_v3) = _
  after_results
  have hA : Pipeline.withArrays (cfgs 0).spec c (V0 m c) (fun w => (dats m 0 c).arrAt w (cfgs 0).N)
      (Proc.devRef .tc main_v1) = outArr (V m c main_arg0) (V m c main_v0) (V m c main_arg2) (V m c main_arg3) :=
    (Pipeline.withArrays_arr spec0 launch0.win.arr_inj c _ _ 4).trans (final m c)
  funext i
  have hi : (i 0).val < 8 := (i 0).isLt
  show shapeCast S8 (extractStridedSlice S8x1x1 ![0, 0, 0]
      (Pipeline.withArrays (cfgs 0).spec c (V0 m c) (fun w => (dats m 0 c).arrAt w (cfgs 0).N) (Proc.devRef .tc main_v1))
      slices_S8x1x128_S8x1x1_0_0_0) shapeCasts_S8x1x1_S8 i = _
  rw [hA]
  refine (shapeCast_apply _ shapeCasts_S8x1x1_S8 i (ix3 ⟨(i 0).val, hi⟩ 0 0) ?_).trans ?_
  · rw [Shape.rowMajor_val_three, Shape.rowMajor_val_one]
    show ((i 0).val * 1 + 0) * 1 + 0 = (i 0).val
    omega
  refine (extractStridedSlice_apply ![0, 0, 0] _ slices_S8x1x128_S8x1x1_0_0_0 _ (ix3 ⟨(i 0).val, hi⟩ 0 0) (fun a => ?_)).trans ?_
  · match a with
    | ⟨0, _⟩ => show (i 0).val = 0 + (i 0).val; omega
    | ⟨1, _⟩ => rfl
    | ⟨2, _⟩ => rfl
  rfl

/-! ## The run, read -/

/-- The result the kernel's program ends with on core c: batch b's score of the arguments as launched, the mask's
    bits read as the floats zero and one. -/
def result (c : Dev nD) : S8.Idx → EReal := fun i =>
  scoreAt (m ((c : Thread nD τ).loc main_arg0)) (uitofp (F := Ideal) .f32 (m ((c : Thread nD τ).loc main_arg1)))
    (m ((c : Thread nD τ).loc main_arg2)) (m ((c : Thread nD τ).loc main_arg3)) ⟨(i 0).val, (i 0).isLt⟩

/-- Every weakly fair execution of the kernel's program terminates with the result buffer at `result` and the
    arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v3 (Pipeline.mem_restRefs_of main_v3 (by decide) (by decide))).trans
        ((tail_v3 m c).trans (by
          unfold result
          rw [V_mask m c, V_main_arg0 m c, V_main_arg2 m c, V_main_arg3 m c]
          rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.Finite.lean ====
import proofs.«419952_j31868657336518_3_alg».proof.Defs
import proofs.«419952_j31868657336518_3_alg».proof.Proof.LibExtReal
import Idealize.ShloMosaic.Lib.ReduceAll
import Idealize.ShloMosaic.Lib.ValueIdx
import Idealize.ShloMosaic.Lib.IdealHost

noncomputable section

namespace Cert.Finite

open Idealize.ShloMosaic Idealize.SL.Sem Cert.ExtReal

/-- An extended real whose absolute value, the larger of it and its negative, lies strictly below plus infinity
    is a real number: it is neither infinity. -/
theorem isFin_of_abs_lt_top (x : EReal) (h : max x (-x) < ⊤) : IsFin x := by
  induction x using EReal.rec with
  | bot => simp at h
  | coe r => exact ⟨r, rfl⟩
  | top => simp at h

/-- The float pattern of plus infinity is the extended real plus infinity. -/
theorem ofBits_inf_f32 : Ideal.ofBits .f32 0x7F800000#32 = (⊤ : EReal) := by
  simp [Ideal.ofBits, Ideal.ieee]

/-- One entry of `|a| < +∞`, read at an index: where the comparison of the absolute value of an array against the
    broadcast pattern of plus infinity gives the word one, the entry is a real number. -/
theorem isFin_of_cmp {T : Shape} (hb : (⟨0, ![]⟩ : Shape).BroadcastsInDim T ![]) (a : FVec Ideal T .f32) (i : T.Idx)
    (h : cmpf .olt (Host.absf a) (broadcastInDim T ![] hb (constant (F := Ideal) ⟨0, ![]⟩ .f32 0x7F800000#32)) i = 1#1) :
    IsFin (a i) := by
  rw [ValueIdx.cmpf_apply, ValueIdx.broadcastInDim_scalar_apply] at h
  refine isFin_of_abs_lt_top (a i) ?_
  rw [← ofBits_inf_f32]
  by_contra hn
  have : Ideal.cmp .olt (max (a i) (-(a i))) (Ideal.ofBits .f32 0x7F800000#32) = 0#1 := by
    simp only [Ideal.cmp, decide_eq_false hn]; rfl
  exact absurd (h.symm.trans this) (by decide)

/-- Where the precondition's function is all ones at the ideal instance, every entry of the three float arguments is a real number. -/
theorem isFin_of_fn [Cert.Pre_finite_inputs.Facts] (a0 : FVec Ideal Cert.Pre_finite_inputs.S8x2x1024x512 .f32)
    (a1 : IVec Cert.Pre_finite_inputs.S8x2x1024 1) (a2 : FVec Ideal Cert.Pre_finite_inputs.S512x128 .f32)
    (a3 : FVec Ideal Cert.Pre_finite_inputs.S128 .f32)
    (h : Cert.Pre_finite_inputs.fn (F := Ideal) a0 a1 a2 a3 = fun _ => 1#1) :
    (∀ i, IsFin (a0 i)) ∧ (∀ i, IsFin (a2 i)) ∧ (∀ i, IsFin (a3 i)) := by
  have h0 := congrFun h ValueIdx.ix0
  dsimp only [Cert.Pre_finite_inputs.fn] at h0
  haveI : Subsingleton Cert.Pre_finite_inputs.S_.Idx := ⟨fun a b => funext fun d => d.elim0⟩
  obtain ⟨h01, h3⟩ := IntOp.andi_eq_one.1 h0
  obtain ⟨h1, h2⟩ := IntOp.andi_eq_one.1 h01
  exact ⟨fun i => isFin_of_cmp _ a0 i (Host.reduce_andi_all _ _ _ _ _ h1 i),
    fun i => isFin_of_cmp _ a2 i (Host.reduce_andi_all _ _ _ _ _ h2 i),
    fun i => isFin_of_cmp _ a3 i (Host.reduce_andi_all _ _ _ _ _ h3 i)⟩

end Cert.Finite

end
-- ==== Proof.RefDist.lean ====
import proofs.«419952_j31868657336518_3_alg».proof.Proof.RefRead
import proofs.«419952_j31868657336518_3_alg».proof.Proof.Spec

noncomputable section

namespace Cert.ReferenceIdeal.RefValue

open Idealize.ShloMosaic Idealize.ShloMosaic.ValueIdx Cert.ReferenceIdeal Cert.ReferenceIdeal.ReadP

/-! ## Where each stage reads its operands

Each equation says which entry of its operand a stage reads when the stage itself is read at an index given by
coordinates. -/

/-- The projection reads row (b, s, l) of the sequences along the contracted coordinate. -/
theorem lidx_v0_eq (b : Fin 8) (s : Fin 2) (l : Fin 1024) (e : Fin 128) (k : Fin 512) :
    lidx_main_v0 (ix4 b s l e) k = ix4 b s l k :=
  funext fun a => Fin.ext (by match a with | ⟨0, _⟩ => rfl | ⟨1, _⟩ => rfl | ⟨2, _⟩ => rfl | ⟨3, _⟩ => rfl)

/-- The projection reads column e of the weights along the contracted coordinate. -/
theorem ridx_v0_eq (b : Fin 8) (s : Fin 2) (l : Fin 1024) (e : Fin 128) (k : Fin 512) :
    ridx_main_v0 (ix4 b s l e) k = ix2 k e :=
  funext fun a => Fin.ext (by match a with | ⟨0, _⟩ => rfl | ⟨1, _⟩ => rfl)

/-- The broadcast bias at (b, s, l, e) is the bias at e. -/
theorem idx_v1_v2_eq (b : Fin 8) (s : Fin 2) (l : Fin 1024) (e : Fin 128) :
    idx_main_v1 (idx_main_v2 (ix4 b s l e)) = ix1 e :=
  funext fun a => Fin.ext (by match a with | ⟨0, _⟩ => rfl)

/-- Entry (b, l, e) of the first sequence's slice, after the unit axis is dropped, is entry (b, 0, l, e). -/
theorem idx_v4_v5_eq (b : Fin 8) (l : Fin 1024) (e : Fin 128) :
    idx_main_v4 (idx_main_v5 (ix3 b l e)) = ix4 b 0 l e := by
  have hb := b.isLt
  have hl := l.isLt
  have he := e.isLt
  funext a
  apply Fin.ext
  match a with
  | ⟨0, _⟩ => show ((b.val * 1024 + l.val) * 128 + e.val) / 131072 = b.val; omega
  | ⟨1, _⟩ => rfl
  | ⟨2, _⟩ => show ((b.val * 1024 + l.val) * 128 + e.val) / 128 % 1024 = l.val; omega
  | ⟨3, _⟩ => show ((b.val * 1024 + l.val) * 128 + e.val) % 128 = e.val; omega

/-- Entry (b, m, e) of the second sequence's slice, after the unit axis is dropped, is entry (b, 1, m, e). -/
theorem idx_v6_v7_eq (b : Fin 8) (m : Fin 1024) (e : Fin 128) :
    idx_main_v6 (idx_main_v7 (ix3 b m e)) = ix4 b 1 m e := by
  have hb := b.isLt
  have hm := m.isLt
  have he := e.isLt
  funext a
  apply Fin.ext
  match a with
  | ⟨0, _⟩ => show ((b.val * 1024 + m.val) * 128 + e.val) / 131072 = b.val; omega
  | ⟨1, _⟩ => rfl
  | ⟨2, _⟩ => show ((b.val * 1024 + m.val) * 128 + e.val) / 128 % 1024 = m.val; omega
  | ⟨3, _⟩ => show ((b.val * 1024 + m.val) * 128 + e.val) % 128 = e.val; omega

/-- A row's sum of squares runs over the last coordinate. -/
theorem idx_v9_eq (b : Fin 8) (l : Fin 1024) (k : Fin 128) : idx_main_v9 (ix2 b l) k = ix3 b l k :=
  funext fun a => Fin.ext (by match a with | ⟨0, _⟩ => rfl | ⟨1, _⟩ => rfl | ⟨2, _⟩ => rfl)

/-- A row's sum of squares runs over the last coordinate. -/
theorem idx_v11_eq (b : Fin 8) (m : Fin 1024) (k : Fin 128) : idx_main_v11 (ix2 b m) k = ix3 b m k :=
  funext fun a => Fin.ext (by match a with | ⟨0, _⟩ => rfl | ⟨1, _⟩ => rfl | ⟨2, _⟩ => rfl)

/-- The inner products read row l of the first projected sequence … -/
theorem lidx_v12_eq (b : Fin 8) (l m : Fin 1024) (k : Fin 128) : lidx_main_v12 (ix3 b l m) k = ix3 b l k :=
  funext fun a => Fin.ext (by match a with | ⟨0, _⟩ => rfl | ⟨1, _⟩ => rfl | ⟨2, _⟩ => rfl)

/-- … and row m of the second. -/
theorem ridx_v12_eq (b : Fin 8) (l m : Fin 1024) (k : Fin 128) : ridx_main_v12 (ix3 b l m) k = ix3 b m k :=
  funext fun a => Fin.ext (by match a with | ⟨0, _⟩ => rfl | ⟨1, _⟩ => rfl | ⟨2, _⟩ => rfl)

/-- The first sequence's squared lengths, broadcast along m, are read at (b, l). -/
theorem idx_v13_v15_eq (b : Fin 8) (l m : Fin 1024) : idx_main_v13 (idx_main_v15 (ix3 b l m)) = ix2 b l :=
  funext fun a => Fin.ext (by match a with | ⟨0, _⟩ => rfl | ⟨1, _⟩ => rfl)

/-- The second sequence's squared lengths, broadcast along l, are read at (b, m). -/
theorem idx_v14_v16_eq (b : Fin 8) (l m : Fin 1024) : idx_main_v14 (idx_main_v16 (ix3 b l m)) = ix2 b m :=
  funext fun a => Fin.ext (by match a with | ⟨0, _⟩ => rfl | ⟨1, _⟩ => rfl)

/-! ## The stages as the specification's functions -/

section Stages

variable (x0 : (⟨S8x2x1024x512, .f32⟩ : BufTy).Contents (Elt Ideal)) (x2 : (⟨S512x128, .f32⟩ : BufTy).Contents (Elt Ideal))
  (x3 : (⟨S128, .f32⟩ : BufTy).Contents (Elt Ideal))

/-- Entry (b, s, l, e) of the biased projection is coordinate e of projected row l of sequence s of batch b. -/
theorem proj_apply (b : Fin 8) (s : Fin 2) (l : Fin 1024) (e : Fin 128) :
    val_main_v3 (F := Ideal) x0 x2 x3 (ix4 b s l e)
      = Cert.Align.proj (fun d e => x2 (ix2 d e)) (fun e => x3 (ix1 e)) (fun l d => x0 (ix4 b s l d)) l e := by
  rw [val_main_v3_apply, val_main_v0_apply, val_main_v2_apply, val_main_v1_apply]
  simp only [lidx_v0_eq, ridx_v0_eq, idx_v1_v2_eq, Ideal.addf_def]
  rfl

/-- The first sequence's projected rows. -/
theorem proj0_apply (b : Fin 8) (l : Fin 1024) (e : Fin 128) :
    val_main_v5 (F := Ideal) x0 x2 x3 (ix3 b l e)
      = Cert.Align.proj (fun d e => x2 (ix2 d e)) (fun e => x3 (ix1 e)) (fun l d => x0 (ix4 b 0 l d)) l e := by
  rw [val_main_v5_apply, val_main_v4_apply, idx_v4_v5_eq, proj_apply]

/-- The second sequence's projected rows. -/
theorem proj1_apply (b : Fin 8) (m : Fin 1024) (e : Fin 128) :
    val_main_v7 (F := Ideal) x0 x2 x3 (ix3 b m e)
      = Cert.Align.proj (fun d e => x2 (ix2 d e)) (fun e => x3 (ix1 e)) (fun l d => x0 (ix4 b 1 l d)) m e := by
  rw [val_main_v7_apply, val_main_v6_apply, idx_v6_v7_eq, proj_apply]

/-- The first sequence's squared lengths. -/
theorem sqNorm0_apply (b : Fin 8) (l : Fin 1024) :
    val_main_v9 (F := Ideal) x0 x2 x3 (ix2 b l)
      = Cert.Align.sqNorm (fun d e => x2 (ix2 d e)) (fun e => x3 (ix1 e)) (fun l d => x0 (ix4 b 0 l d)) l := by
  rw [val_main_v9_apply, val_main_cst_apply]
  simp only [idx_v9_eq, val_main_v8_apply, proj0_apply, Ideal.ofBits_def, Ideal.ofBits_zero_f32, zero_add, Ideal.mulf_def]
  rfl

/-- The second sequence's squared lengths. -/
theorem sqNorm1_apply (b : Fin 8) (m : Fin 1024) :
    val_main_v11 (F := Ideal) x0 x2 x3 (ix2 b m)
      = Cert.Align.sqNorm (fun d e => x2 (ix2 d e)) (fun e => x3 (ix1 e)) (fun l d => x0 (ix4 b 1 l d)) m := by
  rw [val_main_v11_apply, val_main_cst_0_apply]
  simp only [idx_v11_eq, val_main_v10_apply, proj1_apply, Ideal.ofBits_def, Ideal.ofBits_zero_f32, zero_add, Ideal.mulf_def]
  rfl

/-- The inner products of the two sequences' projected rows. -/
theorem cross_apply (b : Fin 8) (l m : Fin 1024) :
    val_main_v12 (F := Ideal) x0 x2 x3 (ix3 b l m)
      = Cert.Align.cross (fun l d => x0 (ix4 b 0 l d)) (fun l d => x0 (ix4 b 1 l d)) (fun d e => x2 (ix2 d e))
          (fun e => x3 (ix1 e)) l m := by
  rw [val_main_v12_apply]
  simp only [lidx_v12_eq, ridx_v12_eq, proj0_apply, proj1_apply]
  rfl

end Stages

/-- Entry (b, l, m) of the reference's matrix of distances is the squared distance between projected row l of
    batch b's first sequence and projected row m of its second. -/
theorem dist_apply (x0 : (⟨S8x2x1024x512, .f32⟩ : BufTy).Contents (Elt Ideal)) (x2 : (⟨S512x128, .f32⟩ : BufTy).Contents (Elt Ideal)) (x3 : (⟨S128, .f32⟩ : BufTy).Contents (Elt Ideal))
    (b : Fin 8) (l m : Fin 1024) :
    val_main_v20 (F := Ideal) x0 x2 x3 (ix3 b l m)
      = Cert.Align.dist (fun l d => x0 (ix4 b 0 l d)) (fun l d => x0 (ix4 b 1 l d)) (fun d e => x2 (ix2 d e))
          (fun e => x3 (ix1 e)) l m := by
  rw [val_main_v20_apply, val_main_v17_apply, val_main_v19_apply, val_main_v15_apply, val_main_v13_apply,
    val_main_v16_apply, val_main_v14_apply, val_main_v18_apply, val_main_cst_1_apply,
    idx_v13_v15_eq, idx_v14_v16_eq, sqNorm0_apply, sqNorm1_apply, cross_apply]
  rfl

end Cert.ReferenceIdeal.RefValue

end
-- ==== Proof.RefScore.lean ====
import proofs.«419952_j31868657336518_3_alg».proof.Proof.RefRead
import proofs.«419952_j31868657336518_3_alg».proof.Proof.Spec

noncomputable section

namespace Cert.ReferenceIdeal.RefValue

open Idealize.ShloMosaic Idealize.ShloMosaic.ValueIdx Cert.ReferenceIdeal Cert.ReferenceIdeal.ReadP
open Cert.ReferenceIdeal.Gen

namespace Score

/-! ## Two general facts -/

/-- A running maximum is at least the value it started from, so taking the larger of the two changes nothing. -/
theorem max_fold_max_self {ι : Type} (s : Finset ι) (a : EReal) (f : ι → EReal) :
    max a (s.fold max a f) = s.fold max a f :=
  max_eq_right ((Finset.le_fold_max a).mpr (Or.inl le_rfl))

/-- A sum over the last two axes of a rank-3 array, read at b: the initial value plus the double sum over the two
    summed coordinates. -/
theorem hostReduceAdd_lastTwo {n0 n1 n2 : Nat}
    (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ l : Fin n1, ∑ m : Fin n2, x (ix3 b l m) := by
  unfold Ideal.hostReduceAdd
  refine congrArg (init + ·) ?_
  have key : ∀ i : (⟨3, ![n0, n1, n2]⟩ : Shape).Idx, h.drop i = ix1 b ↔ i 0 = b := by
    intro i
    have hv : ((h.drop i 0 : Fin _) : Nat) = i 0 := rfl
    constructor
    · intro e
      have := congrArg (fun j : (⟨1, ![n0]⟩ : Shape).Idx => (j 0 : Nat)) e
      exact Fin.ext (hv.symm.trans this)
    · intro e
      funext d
      match d with
      | ⟨0, _⟩ => exact Fin.ext (hv.trans (congrArg Fin.val e))
  rw [← Finset.sum_product' (f := fun l m => x (ix3 b l m))]
  refine Finset.sum_nbij' (fun i => ((i 1 : Fin n1), (i 2 : Fin n2))) (fun p => ix3 b p.1 p.2) ?_ ?_ ?_ ?_ ?_
  · intro i _; exact Finset.mem_product.2 ⟨Finset.mem_univ _, Finset.mem_univ _⟩
  · intro p _; exact Finset.mem_filter.2 ⟨Finset.mem_univ _, (key _).2 rfl⟩
  · intro i hi
    have hb : i 0 = b := (key i).1 (Finset.mem_filter.1 hi).2
    rw [← hb]; exact (eq_ix3 i).symm
  · intro p _; rfl
  · intro i hi
    have hb : i 0 = b := (key i).1 (Finset.mem_filter.1 hi).2
    rw [← hb]; exact congrArg x (eq_ix3 i)

/-! ## Where each stage reads its operands -/

/-- The first mask row, broadcast along m, is read at (b, 0, l). -/
theorem idx_keep_row_eq (b : Fin 8) (l m : Fin 1024) :
    idx_main_v21 (idx_main_v22 (idx_main_v23 (idx_main_v27 (ix3 b l m)))) = ix3 b 0 l := by
  have hb := b.isLt
  have hl := l.isLt
  funext a
  apply Fin.ext
  match a with
  | ⟨0, _⟩ => show (b.val * 1024 + l.val) / 1024 = b.val; omega
  | ⟨1, _⟩ => rfl
  | ⟨2, _⟩ => show (b.val * 1024 + l.val) % 1024 = l.val; omega

/-- The second mask row, broadcast along l, is read at (b, 1, m). -/
theorem idx_keep_col_eq (b : Fin 8) (l m : Fin 1024) :
    idx_main_v24 (idx_main_v25 (idx_main_v26 (idx_main_v28 (ix3 b l m)))) = ix3 b 1 m := by
  have hb := b.isLt
  have hm := m.isLt
  funext a
  apply Fin.ext
  match a with
  | ⟨0, _⟩ => show (b.val * 1024 + m.val) / 1024 = b.val; omega
  | ⟨1, _⟩ => rfl
  | ⟨2, _⟩ => show (b.val * 1024 + m.val) % 1024 = m.val; omega

/-- A row's quantity, broadcast along m, is read at (b, l). -/
theorem idx_v35_v36_eq (b : Fin 8) (l m : Fin 1024) : idx_main_v35 (idx_main_v36 (ix3 b l m)) = ix2 b l :=
  funext fun a => Fin.ext (by match a with | ⟨0, _⟩ => rfl | ⟨1, _⟩ => rfl)

theorem idx_v40_v41_eq (b : Fin 8) (l m : Fin 1024) : idx_main_v40 (idx_main_v41 (ix3 b l m)) = ix2 b l :=
  funext fun a => Fin.ext (by match a with | ⟨0, _⟩ => rfl | ⟨1, _⟩ => rfl)

/-- A column's quantity, broadcast along l, is read at (b, m). -/
theorem idx_v46_v47_eq (b : Fin 8) (l m : Fin 1024) : idx_main_v46 (idx_main_v47 (ix3 b l m)) = ix2 b m :=
  funext fun a => Fin.ext (by match a with | ⟨0, _⟩ => rfl | ⟨1, _⟩ => rfl)

theorem idx_v51_v52_eq (b : Fin 8) (l m : Fin 1024) : idx_main_v51 (idx_main_v52 (ix3 b l m)) = ix2 b m :=
  funext fun a => Fin.ext (by match a with | ⟨0, _⟩ => rfl | ⟨1, _⟩ => rfl)

/-- A row's sum runs over the last coordinate. -/
theorem idx_v39_eq (b : Fin 8) (l k : Fin 1024) : idx_main_v39 (ix2 b l) k = ix3 b l k :=
  funext fun a => Fin.ext (by match a with | ⟨0, _⟩ => rfl | ⟨1, _⟩ => rfl | ⟨2, _⟩ => rfl)

/-- A column's sum runs over the middle coordinate. -/
theorem idx_v50_eq (b : Fin 8) (m k : Fin 1024) : idx_main_v50 (ix2 b m) k = ix3 b k m :=
  funext fun a => Fin.ext (by match a with | ⟨0, _⟩ => rfl | ⟨1, _⟩ => rfl | ⟨2, _⟩ => rfl)

/-! ## The two running maxima over an arbitrary array -/

/-- The maximum along the last axis, from minus infinity, at (b, l). -/
theorem reduce_max_last (y : (⟨S8x1024x1024, .f32⟩ : BufTy).Contents (Elt Ideal)) (b : Fin 8) (l : Fin 1024) :
    Host.reduce (FloatOps.maximumf (F := Ideal) (φ := .f32)) y (val_main_cst_3 (F := Ideal)) reducesTo_S8x1024x1024_S8x1024_d2 h_S_ (ix2 b l)
      = (Finset.univ : Finset (Fin 1024)).fold max Cert.Align.floor (fun m => y (ix3 b l m)) := by
  have hR : S8x1024x1024.Reduces [2] S8x1024 := by decide
  rw [Host.reduce_eq_fold_single (FloatOps.maximumf (F := Ideal) (φ := .f32)) y _ reducesTo_S8x1024x1024_S8x1024_d2 hR h_S_]
  refine congrArg (fun f => (Finset.univ : Finset (Fin 1024)).fold max Cert.Align.floor f) ?_
  funext k
  exact congrArg y (funext fun a => Fin.ext (by match a with | ⟨0, _⟩ => rfl | ⟨1, _⟩ => rfl | ⟨2, _⟩ => rfl))

/-- The maximum along the middle axis, from minus infinity, at (b, m). -/
theorem reduce_max_mid (y : (⟨S8x1024x1024, .f32⟩ : BufTy).Contents (Elt Ideal)) (b : Fin 8) (m : Fin 1024) :
    Host.reduce (FloatOps.maximumf (F := Ideal) (φ := .f32)) y (val_main_cst_6 (F := Ideal)) reducesTo_S8x1024x1024_S8x1024_d1 h_S_ (ix2 b m)
      = (Finset.univ : Finset (Fin 1024)).fold max Cert.Align.floor (fun l => y (ix3 b l m)) := by
  have hR : S8x1024x1024.Reduces [1] S8x1024 := by decide
  rw [Host.reduce_eq_fold_single (FloatOps.maximumf (F := Ideal) (φ := .f32)) y _ reducesTo_S8x1024x1024_S8x1024_d1 hR h_S_]
  refine congrArg (fun f => (Finset.univ : Finset (Fin 1024)).fold max Cert.Align.floor f) ?_
  funext k
  exact congrArg y (funext fun a => Fin.ext (by match a with | ⟨0, _⟩ => rfl | ⟨1, _⟩ => rfl | ⟨2, _⟩ => rfl))

/-- The sum over the last two axes, from its initial value, at b. -/
theorem reduce_add_lastTwo (y : (⟨S8x1024x1024, .f32⟩ : BufTy).Contents (Elt Ideal))
    (c : (⟨S_, .f32⟩ : BufTy).Contents (Elt Ideal)) (b : Fin 8) :
    Host.reduceAdd (F := Ideal) (φ := .f32) y c reducesTo_S8x1024x1024_S8_d1_2 h_S_ (ix1 b)
      = c (Shape.Idx.first h_S_) + ∑ l : Fin 1024, ∑ m : Fin 1024, y (ix3 b l m) :=
  hostReduceAdd_lastTwo reducesTo_S8x1024x1024_S8_d1_2 y _ b

/-! ## The stages as the specification's functions -/

section Stages

variable (x0 : (⟨S8x2x1024x512, .f32⟩ : BufTy).Contents (Elt Ideal)) (x1 : (⟨S8x2x1024, .i1⟩ : BufTy).Contents (Elt Ideal))
  (x2 : (⟨S512x128, .f32⟩ : BufTy).Contents (Elt Ideal)) (x3 : (⟨S128, .f32⟩ : BufTy).Contents (Elt Ideal))

/-- The keep bits of batch b: a pair is kept when both its mask bits are set. -/
abbrev keepOf (b : Fin 8) : Fin 1024 → Fin 1024 → BitVec 1 :=
  fun l m => IntOp.andi (x1 (ix3 b 0 l)) (x1 (ix3 b 1 m))

/-- The matrix of distances of batch b. -/
abbrev distOf (b : Fin 8) : Fin 1024 → Fin 1024 → EReal :=
  fun l m => val_main_v20 (F := Ideal) x0 x2 x3 (ix3 b l m)

/-- The combined mask at (b, l, m) is the and of the two mask bits. -/
theorem keep_apply (b : Fin 8) (l m : Fin 1024) :
    val_main_v29 (F := Ideal) x1 (ix3 b l m) = keepOf x1 b l m := by
  rw [val_main_v29_apply, val_main_v27_apply, val_main_v23_apply, val_main_v22_apply, val_main_v21_apply,
    idx_keep_row_eq, val_main_v28_apply, val_main_v26_apply, val_main_v25_apply, val_main_v24_apply, idx_keep_col_eq]

/-- The broadcast fill is the fill everywhere. -/
theorem fill_apply (i : S8x1024x1024.Idx) : val_main_call0_v1 (F := Ideal) i = Cert.Align.fill := by
  rw [val_main_call0_v1_apply, val_main_call0_v0_apply, val_main_cst_2_apply]
  rfl

/-- The broadcast zero is zero everywhere. -/
theorem zero_apply (i : S8x1024x1024.Idx) : val_main_call1_v1 (F := Ideal) i = 0 := by
  rw [val_main_call1_v1_apply, val_main_call1_v0_apply, val_main_cst_9_apply]
  exact Ideal.ofBits_zero_f32

/-- The logits. -/
theorem logit_apply (b : Fin 8) (l m : Fin 1024) :
    val_main_v31 (F := Ideal) x0 x1 x2 x3 (ix3 b l m)
      = Cert.Align.logit (keepOf x1 b) (distOf x0 x2 x3 b) l m := by
  rw [val_main_v31_apply, keep_apply, val_main_v30_apply, fill_apply]
  rfl

/-- Each row's largest logit. -/
theorem rowTop_apply (b : Fin 8) (l : Fin 1024) :
    val_main_v34 (F := Ideal) x0 x1 x2 x3 (ix2 b l) = Cert.Align.rowTop (keepOf x1 b) (distOf x0 x2 x3 b) l := by
  rw [val_main_v34_apply, val_main_v33_apply, val_main_cst_4_apply]
  unfold val_main_v32
  rw [reduce_max_last]
  simp only [logit_apply]
  exact max_fold_max_self _ _ _

/-- Each column's largest logit. -/
theorem colTop_apply (b : Fin 8) (m : Fin 1024) :
    val_main_v45 (F := Ideal) x0 x1 x2 x3 (ix2 b m) = Cert.Align.colTop (keepOf x1 b) (distOf x0 x2 x3 b) m := by
  rw [val_main_v45_apply, val_main_v44_apply, val_main_cst_7_apply]
  unfold val_main_v43
  rw [reduce_max_mid]
  simp only [logit_apply]
  exact max_fold_max_self _ _ _

/-- The row-shifted exponentials. -/
theorem rowExp_apply (b : Fin 8) (l m : Fin 1024) :
    val_main_v38 (F := Ideal) x0 x1 x2 x3 (ix3 b l m)
      = Cert.Align.rowExp (keepOf x1 b) (distOf x0 x2 x3 b) l m := by
  rw [val_main_v38_apply, val_main_v37_apply, logit_apply, val_main_v36_apply, val_main_v35_apply, idx_v35_v36_eq,
    rowTop_apply]
  rfl

/-- The column-shifted exponentials. -/
theorem colExp_apply (b : Fin 8) (l m : Fin 1024) :
    val_main_v49 (F := Ideal) x0 x1 x2 x3 (ix3 b l m)
      = Cert.Align.colExp (keepOf x1 b) (distOf x0 x2 x3 b) l m := by
  rw [val_main_v49_apply, val_main_v48_apply, logit_apply, val_main_v47_apply, val_main_v46_apply, idx_v46_v47_eq,
    colTop_apply]
  rfl

/-- Each row's sum of shifted exponentials. -/
theorem rowMass_apply (b : Fin 8) (l : Fin 1024) :
    val_main_v39 (F := Ideal) x0 x1 x2 x3 (ix2 b l) = Cert.Align.rowMass (keepOf x1 b) (distOf x0 x2 x3 b) l := by
  rw [val_main_v39_apply, val_main_cst_5_apply, Ideal.ofBits_def, Ideal.ofBits_zero_f32, zero_add]
  simp only [idx_v39_eq, rowExp_apply]
  rfl

/-- Each column's sum of shifted exponentials. -/
theorem colMass_apply (b : Fin 8) (m : Fin 1024) :
    val_main_v50 (F := Ideal) x0 x1 x2 x3 (ix2 b m) = Cert.Align.colMass (keepOf x1 b) (distOf x0 x2 x3 b) m := by
  rw [val_main_v50_apply, val_main_cst_8_apply, Ideal.ofBits_def, Ideal.ofBits_zero_f32, zero_add]
  simp only [idx_v50_eq, colExp_apply]
  rfl

/-- The softmax along m. -/
theorem rowSoft_apply (b : Fin 8) (l m : Fin 1024) :
    val_main_v42 (F := Ideal) x0 x1 x2 x3 (ix3 b l m)
      = Cert.Align.rowSoft (keepOf x1 b) (distOf x0 x2 x3 b) l m := by
  rw [val_main_v42_apply, rowExp_apply, val_main_v41_apply, val_main_v40_apply, idx_v40_v41_eq, rowMass_apply]
  rfl

/-- The softmax along l. -/
theorem colSoft_apply (b : Fin 8) (l m : Fin 1024) :
    val_main_v53 (F := Ideal) x0 x1 x2 x3 (ix3 b l m)
      = Cert.Align.colSoft (keepOf x1 b) (distOf x0 x2 x3 b) l m := by
  rw [val_main_v53_apply, colExp_apply, val_main_v52_apply, val_main_v51_apply, idx_v51_v52_eq, colMass_apply]
  rfl

/-- The attention. -/
theorem att_apply (b : Fin 8) (l m : Fin 1024) :
    val_main_v57 (F := Ideal) x0 x1 x2 x3 (ix3 b l m)
      = Cert.Align.att (keepOf x1 b) (distOf x0 x2 x3 b) l m := by
  rw [val_main_v57_apply, keep_apply, val_main_v56_apply, val_main_v54_apply, val_main_v55_apply, rowSoft_apply,
    colSoft_apply, zero_apply]
  rfl

end Stages

end Score

open Score in
/-- The reference's result at batch b is the score, numerator over the distances, of that batch's matrix of
    distances, a pair being kept when both its mask bits are set. -/
theorem score_apply (x0 : (⟨S8x2x1024x512, .f32⟩ : BufTy).Contents (Elt Ideal)) (x1 : (⟨S8x2x1024, .i1⟩ : BufTy).Contents (Elt Ideal)) (x2 : (⟨S512x128, .f32⟩ : BufTy).Contents (Elt Ideal))
    (x3 : (⟨S128, .f32⟩ : BufTy).Contents (Elt Ideal)) (b : Fin 8) :
    val_main_v62 (F := Ideal) x0 x1 x2 x3 (ix1 b)
      = Cert.Align.scoreDist (fun l m => IntOp.andi (x1 (ix3 b 0 l)) (x1 (ix3 b 1 m)))
          (fun l m => val_main_v20 (F := Ideal) x0 x2 x3 (ix3 b l m)) := by
  rw [val_main_v62_apply, val_main_v60_apply]
  unfold val_main_v59 val_main_v61
  rw [reduce_add_lastTwo, reduce_add_lastTwo, val_main_cst_10_apply, val_main_cst_11_apply, Ideal.ofBits_def,
    Ideal.ofBits_zero_f32, zero_add, zero_add]
  simp only [val_main_v58_apply, att_apply]
  rfl

end Cert.ReferenceIdeal.RefValue

end
-- ==== Proof.LibExtRealMore.lean ====
/-
  More about extended reals that are real numbers: negation, difference and the exponential keep them real; the
  exponential of one is positive; a running maximum started from minus infinity over real numbers, the set not
  empty, is a real number; a sum of positive numbers over a set that is not empty is not zero; and negation
  moves inside a finite sum of real numbers.  The last fails on the extended reals at large, where plus infinity
  and minus infinity may meet in the sum.
-/
import proofs.«419952_j31868657336518_3_alg».proof.Proof.LibExtReal

namespace Cert.ExtReal

open Idealize.ShloMosaic

/-- Minus a real number is a real number. -/
theorem IsFin.neg {x : EReal} (hx : IsFin x) : IsFin (-x) := by
  obtain ⟨a, rfl⟩ := hx
  exact ⟨-a, (EReal.coe_neg a).symm⟩

/-- The difference of two real numbers is a real number. -/
theorem IsFin.sub {x y : EReal} (hx : IsFin x) (hy : IsFin y) : IsFin (x - y) := by
  obtain ⟨a, rfl⟩ := hx; obtain ⟨b, rfl⟩ := hy
  exact ⟨a - b, (EReal.coe_sub a b).symm⟩

/-- A real number is not minus infinity. -/
theorem IsFin.ne_bot {x : EReal} (hx : IsFin x) : x ≠ ⊥ := by
  obtain ⟨a, rfl⟩ := hx
  exact EReal.coe_ne_bot a

/-- A real number is not plus infinity. -/
theorem IsFin.ne_top {x : EReal} (hx : IsFin x) : x ≠ ⊤ := by
  obtain ⟨a, rfl⟩ := hx
  exact EReal.coe_ne_top a

/-- The exponential of a real number is a real number. -/
theorem IsFin.exp {x : EReal} (hx : IsFin x) : IsFin (Ideal.exp x) := by
  obtain ⟨a, rfl⟩ := hx
  exact ⟨Real.exp a, Ideal.exp_coe a⟩

/-- The exponential of a real number is positive. -/
theorem exp_pos_of_isFin {x : EReal} (hx : IsFin x) : 0 < Ideal.exp x := by
  obtain ⟨a, rfl⟩ := hx
  rw [Ideal.exp_coe]
  exact_mod_cast Real.exp_pos a

/-- A running maximum started from minus infinity, over real numbers, is minus infinity or a real number. -/
theorem fold_max_bot_or_isFin {ι : Type} (s : Finset ι) (f : ι → EReal) :
    (∀ i ∈ s, IsFin (f i)) → s.fold max ⊥ f = ⊥ ∨ IsFin (s.fold max ⊥ f) := by
  classical
  refine Finset.induction_on s (fun _ => Or.inl Finset.fold_empty) (fun a s ha ih h => Or.inr ?_)
  rw [Finset.fold_insert ha]
  rcases ih fun i hi => h i (Finset.mem_insert_of_mem hi) with h0 | h1
  · rw [h0, max_eq_left bot_le]; exact h a (Finset.mem_insert_self a s)
  · exact (h a (Finset.mem_insert_self a s)).max h1

/-- The running maximum, started from minus infinity, of real numbers over a set that is not empty is a real
    number: the first member met replaces the start, and the larger of two real numbers is one of them. -/
theorem isFin_fold_max {ι : Type} (s : Finset ι) (f : ι → EReal) (hs : s.Nonempty)
    (h : ∀ i ∈ s, IsFin (f i)) : IsFin (s.fold max ⊥ f) := by
  classical
  obtain ⟨a, ha⟩ := hs
  rw [← Finset.insert_erase ha, Finset.fold_insert (Finset.notMem_erase a s)]
  rcases fold_max_bot_or_isFin (s.erase a) f fun i hi => h i (Finset.mem_of_mem_erase hi) with h0 | h1
  · rw [h0, max_eq_left bot_le]; exact h a ha
  · exact (h a ha).max h1

/-- A sum of positive real numbers over a set that is not empty is not zero. -/
theorem sum_ne_zero_of_pos {ι : Type} (s : Finset ι) (f : ι → EReal) (hs : s.Nonempty)
    (h : ∀ i ∈ s, 0 < f i) : ∑ i ∈ s, f i ≠ 0 := by
  obtain ⟨a, ha⟩ := hs
  exact ((h a ha).trans_le (Finset.single_le_sum (fun i hi => (h i hi).le) ha)).ne'

/-- Among real numbers negation distributes over addition.  (On the extended reals it does not: minus the sum of
    plus infinity and minus infinity is plus infinity, the sum of their negatives is minus infinity.) -/
theorem neg_add_of_isFin {x y : EReal} (hx : IsFin x) (hy : IsFin y) : -(x + y) = -x + -y := by
  obtain ⟨a, rfl⟩ := hx; obtain ⟨b, rfl⟩ := hy
  exact_mod_cast neg_add a b

/-- Minus a finite sum of real numbers is the sum of their negatives. -/
theorem neg_sum_of_isFin {ι : Type} (s : Finset ι) (f : ι → EReal) :
    (∀ i ∈ s, IsFin (f i)) → -(∑ i ∈ s, f i) = ∑ i ∈ s, -(f i) := by
  classical
  refine Finset.induction_on s (fun _ => ?_) (fun a s ha ih h => ?_)
  · rw [Finset.sum_empty, Finset.sum_empty, neg_zero]
  · rw [Finset.sum_insert ha, Finset.sum_insert ha,
      neg_add_of_isFin (h a (Finset.mem_insert_self a s))
        (IsFin.sum s f fun i hi => h i (Finset.mem_insert_of_mem hi)),
      ih fun i hi => h i (Finset.mem_insert_of_mem hi)]

end Cert.ExtReal
-- ==== Proof.Law.lean ====
import proofs.«419952_j31868657336518_3_alg».proof.Proof.Spec
import proofs.«419952_j31868657336518_3_alg».proof.Proof.LibExtReal
import proofs.«419952_j31868657336518_3_alg».proof.Proof.LibExtRealMore

noncomputable section

namespace Cert.Align

open Idealize.ShloMosaic Cert.ExtReal

/-! ## The literals -/

/-- The literal two is the real number two. -/
theorem isFin_two : IsFin two := by
  refine ⟨2, ?_⟩
  simp [two, Ideal.ofBits, Ideal.ieee, -EReal.coe_mul]; norm_num

/-- The fill is the real number minus ten to the ninth. -/
theorem isFin_fill : IsFin fill := by
  refine ⟨-1000000000, ?_⟩
  simp [fill, Ideal.ofBits, Ideal.ieee, -EReal.coe_mul]; norm_num

/-- The floor is minus infinity. -/
theorem floor_eq_bot : floor = ⊥ := by
  simp [floor, Ideal.ofBits, Ideal.ieee]

/-! ## Every quantity built from real distances is a real number -/

section Finite

variable (K : Fin 1024 → Fin 1024 → BitVec 1) (D : Fin 1024 → Fin 1024 → EReal) (hD : ∀ l m, IsFin (D l m))
include hD

/-- A logit is minus a distance or the fill, both real. -/
theorem isFin_logit (l m : Fin 1024) : IsFin (logit K D l m) := by
  unfold logit Scalar.select
  split
  · exact (hD l m).neg
  · exact isFin_fill

/-- A row's largest logit is one of its 1024 logits. -/
theorem isFin_rowTop (l : Fin 1024) : IsFin (rowTop K D l) := by
  unfold rowTop
  rw [floor_eq_bot]
  exact isFin_fold_max _ _ Finset.univ_nonempty fun m _ => isFin_logit K D hD l m

/-- A column's largest logit is one of its 1024 logits. -/
theorem isFin_colTop (m : Fin 1024) : IsFin (colTop K D m) := by
  unfold colTop
  rw [floor_eq_bot]
  exact isFin_fold_max _ _ Finset.univ_nonempty fun l _ => isFin_logit K D hD l m

theorem isFin_rowExp (l m : Fin 1024) : IsFin (rowExp K D l m) :=
  ((isFin_logit K D hD l m).sub (isFin_rowTop K D hD l)).exp

theorem rowExp_pos (l m : Fin 1024) : 0 < rowExp K D l m :=
  exp_pos_of_isFin ((isFin_logit K D hD l m).sub (isFin_rowTop K D hD l))

theorem isFin_colExp (l m : Fin 1024) : IsFin (colExp K D l m) :=
  ((isFin_logit K D hD l m).sub (isFin_colTop K D hD m)).exp

theorem colExp_pos (l m : Fin 1024) : 0 < colExp K D l m :=
  exp_pos_of_isFin ((isFin_logit K D hD l m).sub (isFin_colTop K D hD m))

theorem isFin_rowMass (l : Fin 1024) : IsFin (rowMass K D l) :=
  IsFin.sum _ _ fun m _ => isFin_rowExp K D hD l m

/-- A row's mass is a sum of 1024 positive numbers. -/
theorem rowMass_ne_zero (l : Fin 1024) : rowMass K D l ≠ 0 :=
  sum_ne_zero_of_pos _ _ Finset.univ_nonempty fun m _ => rowExp_pos K D hD l m

theorem isFin_colMass (m : Fin 1024) : IsFin (colMass K D m) :=
  IsFin.sum _ _ fun l _ => isFin_colExp K D hD l m

/-- A column's mass is a sum of 1024 positive numbers. -/
theorem colMass_ne_zero (m : Fin 1024) : colMass K D m ≠ 0 :=
  sum_ne_zero_of_pos _ _ Finset.univ_nonempty fun l _ => colExp_pos K D hD l m

theorem isFin_rowSoft (l m : Fin 1024) : IsFin (rowSoft K D l m) :=
  (isFin_rowExp K D hD l m).div (isFin_rowMass K D hD l) (rowMass_ne_zero K D hD l)

theorem isFin_colSoft (l m : Fin 1024) : IsFin (colSoft K D l m) :=
  (isFin_colExp K D hD l m).div (isFin_colMass K D hD m) (colMass_ne_zero K D hD m)

/-- The attention is a polynomial in two real shares, or zero. -/
theorem isFin_att (l m : Fin 1024) : IsFin (att K D l m) := by
  unfold att Scalar.select
  split
  · exact ((isFin_rowSoft K D hD l m).add (isFin_colSoft K D hD l m)).sub
      ((isFin_rowSoft K D hD l m).mul (isFin_colSoft K D hD l m))
  · exact IsFin.zero

end Finite

/-- On a kept pair the attention times the logit is minus the attention times the distance; on a masked pair
    the attention is zero and both are zero. -/
theorem att_mul_logit (K : Fin 1024 → Fin 1024 → BitVec 1) (D : Fin 1024 → Fin 1024 → EReal) (l m : Fin 1024) :
    att K D l m * logit K D l m = -(att K D l m * D l m) := by
  by_cases h : K l m = 1
  · have hl : logit K D l m = -(D l m) := by unfold logit Scalar.select; rw [if_pos h]
    rw [hl, mul_neg]
  · have ha : att K D l m = 0 := by unfold att Scalar.select; rw [if_neg h]
    rw [ha, zero_mul, zero_mul, neg_zero]

/-- When every distance is a real number the two numerators agree: on a kept pair the logit is minus the
    distance, on a masked pair the attention is zero, and a finite sum of real numbers commutes with negation. -/
theorem numLogit_eq_numDist (K : Fin 1024 → Fin 1024 → BitVec 1) (D : Fin 1024 → Fin 1024 → EReal)
    (hD : ∀ l m, IsFin (D l m)) : numLogit K D = numDist K D := by
  have hterm : ∀ l m, IsFin (att K D l m * D l m) := fun l m => (isFin_att K D hD l m).mul (hD l m)
  unfold numLogit numDist
  rw [neg_sum_of_isFin _ _ fun l _ => IsFin.sum _ _ fun m _ => hterm l m]
  refine Finset.sum_congr rfl fun l _ => ?_
  rw [neg_sum_of_isFin _ _ fun m _ => hterm l m]
  exact Finset.sum_congr rfl fun m _ => att_mul_logit K D l m

/-- So the two scores agree. -/
theorem scoreLogit_eq_scoreDist (K : Fin 1024 → Fin 1024 → BitVec 1) (D : Fin 1024 → Fin 1024 → EReal)
    (hD : ∀ l m, IsFin (D l m)) : scoreLogit K D = scoreDist K D := by
  unfold scoreLogit scoreDist; rw [numLogit_eq_numDist K D hD]

/-- A projected coordinate of a real sequence under real weights and bias is a real number. -/
theorem isFin_proj (W : Fin 512 → Fin 128 → EReal) (β : Fin 128 → EReal) (Z : Fin 1024 → Fin 512 → EReal)
    (hW : ∀ d e, IsFin (W d e)) (hβ : ∀ e, IsFin (β e)) (hZ : ∀ l d, IsFin (Z l d)) (l : Fin 1024) (e : Fin 128) :
    IsFin (proj W β Z l e) :=
  (IsFin.sum _ _ fun d _ => (hZ l d).mul (hW d e)).add (hβ e)

/-- The distances of sequences, weights and bias whose entries are real numbers are real numbers. -/
theorem isFin_dist (X Y : Fin 1024 → Fin 512 → EReal) (W : Fin 512 → Fin 128 → EReal) (β : Fin 128 → EReal)
    (hX : ∀ l d, IsFin (X l d)) (hY : ∀ l d, IsFin (Y l d)) (hW : ∀ d e, IsFin (W d e)) (hβ : ∀ e, IsFin (β e))
    (l m : Fin 1024) : IsFin (dist X Y W β l m) := by
  have hpX := isFin_proj W β X hW hβ hX
  have hpY := isFin_proj W β Y hW hβ hY
  unfold dist sqNorm cross
  exact ((IsFin.sum _ _ fun e _ => (hpX l e).mul (hpX l e)).add
      (IsFin.sum _ _ fun e _ => (hpY m e).mul (hpY m e))).sub
    (isFin_two.mul (IsFin.sum _ _ fun e _ => (hpX l e).mul (hpY m e)))

end Cert.Align

end
-- ==== Proof.Bridge.lean ====
/-
  The two sides meet.  Both programs end, at position b, with the score of batch b's matrix of squared distances:
  the kernel with the numerator summed over the logits, the pairs kept where the product of the two mask bits, read
  as floats, exceeds one half; the reference with the numerator summed over the distances, the pairs kept where the
  and of the two bits is set.  The two keep rules are one (a product of two numbers that are each zero or one
  exceeds one half exactly when both are one), and the two numerators agree because every distance is a real
  number, which the finiteness of the float arguments gives.
-/
import proofs.«419952_j31868657336518_3_alg».proof.Proof.KernelArray
import proofs.«419952_j31868657336518_3_alg».proof.Proof.RefDist
import proofs.«419952_j31868657336518_3_alg».proof.Proof.RefScore
import proofs.«419952_j31868657336518_3_alg».proof.Proof.Law
import Idealize.ShloMosaic.Lib.IdealHost
import Idealize.ShloMosaic.Lib.Affine

noncomputable section

namespace Cert.Bridge

open Idealize.ShloMosaic Idealize.ShloMosaic.ValueIdx Cert.ExtReal

/-- The float pattern of one half. -/
theorem ofBits_half_f32 : Ideal.ofBits .f32 0x3F000000#32 = (((1 : ℝ) / 2 : ℝ) : EReal) := by
  simp [Ideal.ofBits, Ideal.ieee, -EReal.coe_mul]; norm_num

/-- A bit read as a float is the real number zero or one. -/
theorem uitofp_bit (p : BitVec 1) : FloatOps.uitofp (F := Ideal) .f32 p = ((p.toNat : ℝ) : EReal) := rfl

/-- The product of two bits, read as floats, exceeds one half exactly when both bits are set. -/
theorem half_lt_mul (p q : BitVec 1) :
    Ideal.cmp .ogt (FloatOps.uitofp (F := Ideal) .f32 p * FloatOps.uitofp (F := Ideal) .f32 q)
      (Ideal.ofBits .f32 0x3F000000#32) = IntOp.andi p q := by
  rw [ofBits_half_f32, uitofp_bit, uitofp_bit]
  have hp : p = 0#1 ∨ p = 1#1 := by revert p; decide
  have hq : q = 0#1 ∨ q = 1#1 := by revert q; decide
  rcases hp with rfl | rfl <;> rcases hq with rfl | rfl
  all_goals (simp only [Ideal.cmp, IntOp.andi, ← EReal.coe_mul, EReal.coe_lt_coe_iff]; norm_num; rfl)

/-- For float arguments whose entries are real numbers, the reference's result at batch b is the kernel's score of
    batch b, the mask's bits read as floats. -/
theorem results_agree (x0 : (⟨4, ![8, 2, 1024, 512]⟩ : Shape).Idx → EReal) (x1 : (⟨3, ![8, 2, 1024]⟩ : Shape).Idx → BitVec 1)
    (x2 : (⟨2, ![512, 128]⟩ : Shape).Idx → EReal) (x3 : (⟨1, ![128]⟩ : Shape).Idx → EReal)
    (h0 : ∀ i, IsFin (x0 i)) (h2 : ∀ i, IsFin (x2 i)) (h3 : ∀ i, IsFin (x3 i)) (b : Fin 8) :
    Cert.ReferenceIdeal.ReadP.val_main_v62 (F := Ideal) x0 x1 x2 x3 (ix1 b)
      = Cert.KernelIdeal.Result.scoreAt x0 (uitofp (F := Ideal) .f32 x1) x2 x3 b := by
  rw [Cert.ReferenceIdeal.RefValue.score_apply]
  unfold Cert.KernelIdeal.Result.scoreAt
  have hD : (fun l m => Cert.ReferenceIdeal.ReadP.val_main_v20 (F := Ideal) x0 x2 x3 (ix3 b l m))
      = Cert.Align.dist (fun l d => x0 (ix4 b 0 l d)) (fun l d => x0 (ix4 b 1 l d)) (fun d e => x2 (ix2 d e))
          (fun e => x3 (ix1 e)) :=
    funext fun l => funext fun m => Cert.ReferenceIdeal.RefValue.dist_apply x0 x2 x3 b l m
  have hK : Cert.KernelIdeal.Body.keepBit (fun l => uitofp (F := Ideal) .f32 x1 (ix3 b 0 l))
      (fun m => uitofp (F := Ideal) .f32 x1 (ix3 b 1 m)) = fun l m => IntOp.andi (x1 (ix3 b 0 l)) (x1 (ix3 b 1 m)) :=
    funext fun l => funext fun m => half_lt_mul _ _
  rw [hD, hK]
  exact (Cert.Align.scoreLogit_eq_scoreDist _ _ fun l m =>
    Cert.Align.isFin_dist _ _ _ _ (fun _ _ => h0 _) (fun _ _ => h0 _) (fun _ _ => h2 _) (fun _ => h3 _) l m).symm

end Cert.Bridge

end
-- ==== Proof.lean ====
/-
  The certificate of the soft symmetric alignment kernel against its jnp reference, over the extended reals.

  For each of eight batch elements, two sequences of 1024 vectors are projected to dimension 128; the squared
  distances of all pairs of projected rows give logits (minus the distance, or a large negative fill where the
  pair is masked); a softmax of the logits along each of the two axes, each shifted by its own maximum, gives two
  weights per pair, combined as a + b − a·b into an attention; the score is the attention-weighted mean of minus
  the distance.  The kernel does all of this for one batch element per grid point inside one region, and sums
  attention times LOGIT in the numerator; the reference does it with whole-array host operations and sums attention
  times DISTANCE, negated.  On a kept pair the logit is minus the distance; on a masked pair the attention is zero;
  so the numerators agree once every distance is a real number, and the denominators are the same sum.  That the
  distances are real numbers is where the precondition (every float input finite) is used.

  The modules: Spec (the score as a function of plain families of extended reals, split at the matrix of
  distances), KernelDist and KernelScore (the kernel body's two parts at an index), KernelArray (from the blocks to
  the array and through the lines after the region), RefDist and RefScore (the reference's stages at an index), Law
  (the two numerators agree; over LibExtReal and LibExtRealMore), Finite (the precondition gives real entries),
  Bridge (the two keep rules are one, and the two results agree).  The three frames are the generated frame of each
  program (the reference's is its run with the result dropped), and nothing was rewritten by the idealization, so
  that conjunct is trivial.
-/
import proofs.«419952_j31868657336518_3_alg».proof.Defs
import proofs.«419952_j31868657336518_3_alg».proof.Proof.Gen.Kernel.Frame
import proofs.«419952_j31868657336518_3_alg».proof.Proof.Gen.KernelIdeal.Frame
import proofs.«419952_j31868657336518_3_alg».proof.Proof.Gen.Pre_finite_inputs
import proofs.«419952_j31868657336518_3_alg».proof.Proof.RefRun
import proofs.«419952_j31868657336518_3_alg».proof.Proof.RefReadRun
import proofs.«419952_j31868657336518_3_alg».proof.Proof.KernelArray
import proofs.«419952_j31868657336518_3_alg».proof.Proof.Finite
import proofs.«419952_j31868657336518_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten when the kernel was idealized. -/
theorem preserves : Cert.preserves_Kernel_KernelIdeal := trivial

/-- From memories agreeing on the arguments both programs end with batch b's score at position b. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨f0, f2, f3⟩ := Cert.Finite.isFin_of_fn _ _ _ _ (hpre c)
  rw [Cert.ReferenceIdeal.ReadP.val_main_v62_eq, (hagree c).1, (hagree c).2.1, (hagree c).2.2.1, (hagree c).2.2.2]
  funext i
  obtain ⟨b, rfl⟩ : ∃ b : Fin 8, i = ValueIdx.ix1 b := ⟨i 0, ValueIdx.eq_ix1 i⟩
  exact Cert.Bridge.results_agree _ _ _ _ f0 f2 f3 b

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
